-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1024 : Shape := ⟨1, ![1024]⟩
abbrev S512 : Shape := ⟨1, ![512]⟩
abbrev S512x1 : Shape := ⟨2, ![512, 1]⟩
abbrev S_ : Shape := ⟨0, ![]⟩

abbrev nBuf : Space → Nat
  | .hbm => 19
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_24 : BitVec 32 := 0#32
  let v49 : BitVec 1 := Scalar.cmpi .ne v48 c0_i32_24
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  reduces_S1024x512_S1024 : S1024x512.Reduces [1] S1024
  shapeCasts_S1024_S1024x1 : S1024.ShapeCasts S1024x1
  reduces_S512x512_S512 : S512x512.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S512x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_call2_v0 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.BData.lean ====
import proofs.«114037_j2585570312417_1_alg».proof.Proof.Gen.Kernel.Launch
import proofs.«114037_j2585570312417_1_alg».proof.Proof.Gen.Kernel.Skeleton
import proofs.«114037_j2585570312417_1_alg».proof.Proof.Gen.Kernel.Points
import Idealize.ShloMosaic.Lib.Pipeline.FrameBody
import Idealize.ShloMosaic.Lib.Pipeline.FrameSuffix
import Idealize.ShloMosaic.Lib.Tactic

/-!
  The proof data of the pairwise hard-mining kernel, at any float instance.

  The grid is 8 row groups by 16 column groups, 128 points in row-major order: point `t` works on row group
  `t / 16` and column group `t % 16`.  Two scratch vectors of 1024 entries carry, per row of the group, the
  running maximum of the masked distances and the running minimum: they are reset to -inf and +inf when
  the column group is 0 and combined with the point's group maximum and minimum at every point, and only at
  column group 15 are they copied to the two output blocks, which are written back there.  `accAt` is that
  recursion over the points; the invariant between points says the scratch vectors hold its value.
  Windows 0 and 1 read the SAME array (the points) at different blocks, so each holds half of the array's share.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers as the region finds them -/

/-- Core `c`'s buffer contents when the region is entered: after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 1024 rows of the point's row group. -/
abbrev qblk (c : Dev nD) (t : Fin cfg0.N) : Vec F S1024x512 .f32 := iblk m c 0 t
/-- The 512 rows of the point's column group. -/
abbrev kblk (c : Dev nD) (t : Fin cfg0.N) : Vec F S512x512 .f32 := iblk m c 1 t
/-- The labels of the row group, as a column. -/
abbrev qlbl (c : Dev nD) (t : Fin cfg0.N) : Vec F S1024x1 .i32 := iblk m c 2 t
/-- The labels of the column group, as a row. -/
abbrev klbl (c : Dev nD) (t : Fin cfg0.N) : Vec F S1x512 .i32 := iblk m c 3 t

/-! ## The accumulation over the points -/

/-- The point's group maximum of the masked distances, per row. -/
def bmax (c : Dev nD) (t : Fin cfg0.N) : FVec F S1024x1 .f32 := k0_pay7 (qblk m c t) (kblk m c t) (qlbl m c t) (klbl m c t)
/-- The point's group minimum, per row. -/
def bmin (c : Dev nD) (t : Fin cfg0.N) : FVec F S1024x1 .f32 := k0_pay8 (qblk m c t) (kblk m c t) (qlbl m c t) (klbl m c t)

/-- What the two scratch vectors hold after the body at position `n`: reset and combined at the first column
    group, combined with what the position before left at the others. -/
def accAt (c : Dev nD) : (n : ℕ) → n < cfg0.N → FVec F S1024x1 .f32 × FVec F S1024x1 .f32
  | 0, hn => (k0_pay1 (bmax m c ⟨0, hn⟩) (k0_pay3 (F := F)), k0_pay2 (bmin m c ⟨0, hn⟩) (k0_pay4 (F := F)))
  | n + 1, hn =>
    if (n + 1) % 16 = 0 then
      (k0_pay1 (bmax m c ⟨n + 1, hn⟩) (k0_pay3 (F := F)), k0_pay2 (bmin m c ⟨n + 1, hn⟩) (k0_pay4 (F := F)))
    else
      (k0_pay1 (bmax m c ⟨n + 1, hn⟩) (accAt c n (Nat.lt_of_succ_lt hn)).1, k0_pay2 (bmin m c ⟨n + 1, hn⟩) (accAt c n (Nat.lt_of_succ_lt hn)).2)

/-- At a point of column group 0: reset, then combined. -/
theorem accAt_reset (c : Dev nD) (t : Fin cfg0.N) (h0 : t.val % 16 = 0) :
    accAt m c t.val t.isLt = (k0_pay1 (bmax m c t) (k0_pay3 (F := F)), k0_pay2 (bmin m c t) (k0_pay4 (F := F))) := by
  obtain ⟨n, hn⟩ := t
  cases n with
  | zero => rfl
  | succ n => exact (if_pos h0)

/-- At any other point: combined with what the point before left. -/
theorem accAt_step (c : Dev nD) (t : Fin cfg0.N) (h0 : ¬t.val % 16 = 0) :
    accAt m c t.val t.isLt = (k0_pay1 (bmax m c t) (accAt m c (t.val - 1) (Nat.lt_of_le_of_lt (Nat.sub_le _ _) t.isLt)).1,
      k0_pay2 (bmin m c t) (accAt m c (t.val - 1) (Nat.lt_of_le_of_lt (Nat.sub_le _ _) t.isLt)).2) := by
  obtain ⟨n, hn⟩ := t
  cases n with
  | zero => exact absurd (Nat.zero_mod _) h0
  | succ n => exact (if_neg h0)

/-! ## The schedule, decided over the grid -/

/-- The reset branch is taken exactly at column group 0. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 16 = 0 :=
  (by decide +kernel : ∀ t : Fin grid0.N, cond1 (grid0.coords t) ↔ t.val % 16 = 0)
/-- The copy-out branch is taken exactly at column group 15. -/
abbrev cond2 (i : grid0.Coords) : Prop := k0_cond2 i = 1#1
theorem hcond2 : ∀ t : Fin cfg0.N, cond2 (grid0.coords t) ↔ t.val % 16 = 15 :=
  (by decide +kernel : ∀ t : Fin grid0.N, cond2 (grid0.coords t) ↔ t.val % 16 = 15)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The outputs are idle, and not written back, away from column group 15; live there. -/
theorem idle4 : ∀ t : Fin cfg0.N, ¬cond2 (grid0.coords t) → cfg0.idle 4 (grid0.coords t) = true := by decide +kernel
theorem idle5 : ∀ t : Fin cfg0.N, ¬cond2 (grid0.coords t) → cfg0.idle 5 (grid0.coords t) = true := by decide +kernel
theorem noFlush4 : ∀ t : Fin cfg0.N, ¬cond2 (grid0.coords t) → (cfg0.win 4).flush t = false := by decide +kernel
theorem noFlush5 : ∀ t : Fin cfg0.N, ¬cond2 (grid0.coords t) → (cfg0.win 5).flush t = false := by decide +kernel
theorem live4 : ∀ t : Fin cfg0.N, cond2 (grid0.coords t) → cfg0.idle 4 (grid0.coords t) = false := by decide +kernel
theorem live5 : ∀ t : Fin cfg0.N, cond2 (grid0.coords t) → cfg0.idle 5 (grid0.coords t) = false := by decide +kernel

/-! ## The memrefs the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
/-- The two scratch vectors. -/
abbrev scM : Memref sig .tc .vmem S1024x1 .f32 := Memref.whole cc0_scratch0
abbrev scN : Memref sig .tc .vmem S1024x1 .f32 := Memref.whole cc0_scratch1

/-! ## The invariant between points -/

/-- Before the first point the scratch vectors hold anything; afterwards what the point before left. -/
def PhiS (c : Dev nD) : (n : ℕ) → n ≤ cfg0.N → sProp 𝕄
  | 0, _ => Pipeline.ΦA spec0 c
  | n + 1, hn => iprop(iprop(owns (c : Thread nD τ) scM fullShare ((accAt m c n hn).1) ∗ owns (c : Thread nD τ) scN fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((accAt m c n hn).1) ∗ owns (c : Thread nD τ) scN fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((accAt m c (n - 1) (by omega)).1) ∗ owns (c : Thread nD τ) scN fullShare ((accAt m c (n - 1) (by omega)).2)) ∗ (∃ r, prngReg c r)) := by
  cases n with
  | zero => exact absurd rfl hz
  | succ n => rfl

/-- The class invariant with the scratch vectors as memrefs owned at some contents. -/
theorem PhiA_eq (c : Dev nD) :
    (Pipeline.ΦA spec0 c : sProp 𝕄)
      = iprop(iprop((∃ d, owns (c : Thread nD τ) scM fullShare d) ∗ (∃ d, owns (c : Thread nD τ) scN fullShare d)) ∗ (∃ r, prngReg c r)) := by
  unfold Pipeline.ΦA; rw [scopedRest0_eq]; simp only [scM, scN, owns_whole]; try rfl

/-! ## The proof data -/

/-- The arrays as the region finds them; each input's buffer at its block after the body, the outputs' at the
    accumulation; the invariant `PhiS`; the points array's share dealt half and half to the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).1
    | ⟨5, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (accAt m c t.val t.isLt).1 := by dsimp only [dats]
theorem after5 (c : Dev nD) (t : Fin cfg0.N) : (dats m 0 c).after 5 t = (accAt m c t.val t.isLt).2 := by dsimp only [dats]

end Cert.Kernel.Hand

end
-- ==== Proof.BShare.lean ====
import proofs.«114037_j2585570312417_1_alg».proof.Proof.BData

/-!
  Windows 0 and 1 read one array, the points.  The launch hands the region the five DISTINCT buffers behind the six
  windows, each whole at the full share; the pipeline holds one points-to per window.  The two agree once the
  points array's full share is split into its two halves, one per window on it, and conversely the two halves,
  holding the same contents, join to the full share.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The distinct buffers behind the six windows. -/
theorem arrRefs_eq : (Finset.univ.image (Pipeline.arrRef spec0) : Finset (Ref sig .tc)) = [main_arg0, main_v0, main_v1, main_v2_0, main_v2_1].toFinset := by
  decide

/-- Those five buffers, one by one. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_v0) ↦{fullShare} Vv main_v0)
          ∗ (((c : Thread nD τ).loc main_v1) ↦{fullShare} Vv main_v1) ∗ (((c : Thread nD τ).loc main_v2_0) ↦{fullShare} Vv main_v2_0)
          ∗ (((c : Thread nD τ).loc main_v2_1) ↦{fullShare} Vv main_v2_1)) := by
  unfold Pipeline.arrBufs
  exact bigSep_eq_bigSepL_of_eq [main_arg0, main_v0, main_v1, main_v2_0, main_v2_1] arrRefs_eq (by decide) _

/-- The pipeline's arrays, window by window, each at its share. -/
theorem arrays_eq6 (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2) ∗ (((c : Thread nD τ).loc main_v1) ↦{fullShare} Fa 3)
          ∗ (((c : Thread nD τ).loc main_v2_0) ↦{fullShare} Fa 4) ∗ (((c : Thread nD τ).loc main_v2_1) ↦{fullShare} Fa 5)) := by
  have h : ((dats m 0 c).arrays Fa : sProp 𝕄)
      = bigSep Finset.univ fun w : Fin cfg0.W => (((c : Thread nD τ).loc (Pipeline.arrRef spec0 w)) ↦{(dats m 0 c).share w} Fa w : sProp 𝕄) := by
    unfold Dat.arrays
    exact bigSep_congr fun w _ => by rw [(arr_whole0 w).set_eq_univ]
  rw [h, bigSep_W0]
  rfl

/-- The buffers behind the arrays at `Vv` make the pipeline's arrays at the same contents: the points array's full
    share splits into the halves of the two windows on it. -/
theorem arrays_of_bufs (c : Dev nD) (Vv : (b : Ref sig .tc) → Buf (Elt F) ((c : Thread nD τ).loc b))
    (Fa : (w : Fin cfg0.W) → Buf (Elt F) ((cfg0.win w).arr.view.loc (c : Thread nD τ))) (hF : ∀ w, Fa w = Vv (Pipeline.arrRef spec0 w)) :
    (Pipeline.arrBufs spec0 c Vv : sProp 𝕄) ⊢ (dats m 0 c).arrays Fa := by
  rw [arrBufs_eq, arrays_eq6, hF 0, hF 1, hF 2, hF 3, hF 4, hF 5]
  iintro ⟨H0, H2, H3, H4, H5⟩
  ihave H01 := (pointsTo_share (PosShare.mem_left_op_right fullShare)).1 $$ H0
  icases H01 with ⟨Ha, Hb⟩
  isplitl [Ha]; · iexact Ha
  isplitl [Hb]; · iexact Hb
  isplitl [H2]; · iexact H2
  isplitl [H3]; · iexact H3
  isplitl [H4]; · iexact H4
  iexact H5

/-- And back: the two halves of the points array, at the same contents, join. -/
theorem bufs_of_arrays (c : Dev nD) (Vv : (b : Ref sig .tc) → Buf (Elt F) ((c : Thread nD τ).loc b))
    (Fa : (w : Fin cfg0.W) → Buf (Elt F) ((cfg0.win w).arr.view.loc (c : Thread nD τ))) (hF : ∀ w, Fa w = Vv (Pipeline.arrRef spec0 w)) :
    ((dats m 0 c).arrays Fa : sProp 𝕄) ⊢ Pipeline.arrBufs spec0 c Vv := by
  rw [arrBufs_eq, arrays_eq6, hF 0, hF 1, hF 2, hF 3, hF 4, hF 5]
  iintro ⟨Ha, Hb, H2, H3, H4, H5⟩
  isplitl [Ha Hb]
  · iapply (pointsTo_share (PosShare.mem_left_op_right fullShare)).2
    isplitl [Ha]; · iexact Ha
    iexact Hb
  isplitl [H2]; · iexact H2
  isplitl [H3]; · iexact H3
  isplitl [H4]; · iexact H4
  iexact H5

end Cert.Kernel.Hand

end
-- ==== Proof.BBody.lean ====
import proofs.«114037_j2585570312417_1_alg».proof.Proof.BData
import Idealize.ShloMosaic.Lib.Pipeline.Value

/-! The body at one point: from the inputs' staging buffers at their blocks and the scratch vectors at what the
    point before left, it runs to the scratch vectors at the point's accumulation, the outputs' staging
    buffers untouched away from column group 15 and holding the accumulation there. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The body on any whole buffers, by column group

Every access of the body is of a whole buffer. Column group 0 first resets the two scratch vectors; every column
group then replaces them by their entrywise maximum, resp. minimum, with the point's group maximum and minimum of
the masked distances; column group 15 finally copies them to the two output buffers. No point is in both column
group 0 and column group 15, so there are three runs, each with the contents every buffer ends at written out. -/

/-- The zero offsets of a whole-buffer access, however spelt. -/
theorem body_hz : (![0, 0] : Fin 2 → Nat) = fun _ => 0 := funext fun a => by fin_cases a <;> rfl

/-- After a list of stores whose last goes through the whole-buffer rectangle, the buffer reads that store's
    payload, whatever it held and whatever was stored before. -/
theorem body_read_writes_last_whole {sg : RefSig} {κ : Kind} {sp : Space} {S : Shape} {e : EltTy} {Val : EltTy → Type} [∀ e, Nonempty (Val e)]
    (v : View sg κ sp S e) (f : v.ty.Contents Val) {off : Fin S.rank → Nat} (h0 : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h0 inb y⟩),
    View.canon_cons_unit_zero h0]

set_option maxHeartbeats 4000000 in
/-- A point of a column group strictly between 0 and 15: the scratch vectors are combined with the point's group
    maximum and minimum; everything else is handed back as found. -/
theorem body_run_middle (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc1 : ¬cond1 i) (hc2 : ¬cond2 i)
    (x0 : Vec F S1024x512 .f32) (x1 : Vec F S512x512 .f32) (x2 : Vec F S1024x1 .i32) (x3 : Vec F S1x512 .i32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay1 (k0_pay7 x0 x1 x2 x3) xs0) ∗ owns (c : Thread nD τ) arg9 fullShare (k0_pay2 (k0_pay8 x0 x1 x2 x3) xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [HS0]
  · iexists _; isplitr
    swap; · iexact HS0
    ipureintro
    sl_unfold_run_names
    rw [body_read_writes_last_whole _ _ body_hz]
    simp only [View.readAt_eq_ld, hf0, hf1, hf2, hf3, hfs0, View.readCov_unit_zero (S := S1024x1) _ body_hz, View.ld_unit_zero (S := S1024x1) body_hz, View.ld_unit_zero (S := S1024x512) body_hz, View.ld_unit_zero (S := S512x512) body_hz, View.ld_unit_zero (S := S1x512) body_hz]
  iexists _; isplitr
  swap; · iexact HS1
  ipureintro
  sl_unfold_run_names
  rw [body_read_writes_last_whole _ _ body_hz]
  simp only [View.readAt_eq_ld, hf0, hf1, hf2, hf3, hfs1, View.readCov_unit_zero (S := S1024x1) _ body_hz, View.ld_unit_zero (S := S1024x1) body_hz, View.ld_unit_zero (S := S1024x512) body_hz, View.ld_unit_zero (S := S512x512) body_hz, View.ld_unit_zero (S := S1x512) body_hz]

set_option maxHeartbeats 4000000 in
/-- A point of column group 0: the scratch vectors, whatever they held, are reset to -inf and +inf and then combined
    with the point's group maximum and minimum; everything else is handed back as found. -/
theorem body_run_reset (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc1 : cond1 i) (hc2 : ¬cond2 i)
    (x0 : Vec F S1024x512 .f32) (x1 : Vec F S512x512 .f32) (x2 : Vec F S1024x1 .i32) (x3 : Vec F S1x512 .i32)
    (xi4 xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay1 (k0_pay7 x0 x1 x2 x3) (k0_pay3 (F := F))) ∗ owns (c : Thread nD τ) arg9 fullShare (k0_pay2 (k0_pay8 x0 x1 x2 x3) (k0_pay4 (F := F)))) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [HS0]
  · iexists _; isplitr
    swap; · iexact HS0
    ipureintro
    sl_unfold_run_names
    rw [body_read_writes_last_whole _ _ body_hz]
    simp only [View.readAt_eq_ld, hf0, hf1, hf2, hf3, View.readCov_unit_zero (S := S1024x1) _ body_hz, View.ld_unit_zero (S := S1024x1) body_hz, View.ld_unit_zero (S := S1024x512) body_hz, View.ld_unit_zero (S := S512x512) body_hz, View.ld_unit_zero (S := S1x512) body_hz]
  iexists _; isplitr
  swap; · iexact HS1
  ipureintro
  sl_unfold_run_names
  rw [body_read_writes_last_whole _ _ body_hz]
  simp only [View.readAt_eq_ld, hf0, hf1, hf2, hf3, View.readCov_unit_zero (S := S1024x1) _ body_hz, View.ld_unit_zero (S := S1024x1) body_hz, View.ld_unit_zero (S := S1024x512) body_hz, View.ld_unit_zero (S := S512x512) body_hz, View.ld_unit_zero (S := S1x512) body_hz]

set_option maxHeartbeats 4000000 in
/-- A point of column group 15: the scratch vectors are combined with the point's group maximum and minimum and then
    copied to the two output buffers, whatever those held. -/
theorem body_run_last (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc1 : ¬cond1 i) (hc2 : cond2 i)
    (x0 : Vec F S1024x512 .f32) (x1 : Vec F S512x512 .f32) (x2 : Vec F S1024x1 .i32) (x3 : Vec F S1x512 .i32)
    (xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 (k0_pay7 x0 x1 x2 x3) xs0) ∗ owns (c : Thread nD τ) arg7 fullShare (k0_pay2 (k0_pay8 x0 x1 x2 x3) xs1)
            ∗ owns (c : Thread nD τ) arg8 fullShare (k0_pay1 (k0_pay7 x0 x1 x2 x3) xs0) ∗ owns (c : Thread nD τ) arg9 fullShare (k0_pay2 (k0_pay8 x0 x1 x2 x3) xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [body_read_writes_last_whole _ _ body_hz]
    simp only [View.readAt_eq_ld, hf0, hf1, hf2, hf3, hfs0, View.readCov_unit_zero (S := S1024x1) _ body_hz, View.ld_unit_zero (S := S1024x1) body_hz, View.ld_unit_zero (S := S1024x512) body_hz, View.ld_unit_zero (S := S512x512) body_hz, View.ld_unit_zero (S := S1x512) body_hz]
  isplitl [H5]
  · iexists _; isplitr
    swap; · iexact H5
    ipureintro
    sl_unfold_run_names
    rw [body_read_writes_last_whole _ _ body_hz]
    simp only [View.readAt_eq_ld, hf0, hf1, hf2, hf3, hfs1, View.readCov_unit_zero (S := S1024x1) _ body_hz, View.ld_unit_zero (S := S1024x1) body_hz, View.ld_unit_zero (S := S1024x512) body_hz, View.ld_unit_zero (S := S512x512) body_hz, View.ld_unit_zero (S := S1x512) body_hz]
  isplitl [HS0]
  · iexists _; isplitr
    swap; · iexact HS0
    ipureintro
    sl_unfold_run_names
    rw [body_read_writes_last_whole _ _ body_hz]
    simp only [View.readAt_eq_ld, hf0, hf1, hf2, hf3, hfs0, View.readCov_unit_zero (S := S1024x1) _ body_hz, View.ld_unit_zero (S := S1024x1) body_hz, View.ld_unit_zero (S := S1024x512) body_hz, View.ld_unit_zero (S := S512x512) body_hz, View.ld_unit_zero (S := S1x512) body_hz]
  iexists _; isplitr
  swap; · iexact HS1
  ipureintro
  sl_unfold_run_names
  rw [body_read_writes_last_whole _ _ body_hz]
  simp only [View.readAt_eq_ld, hf0, hf1, hf2, hf3, hfs1, View.readCov_unit_zero (S := S1024x1) _ body_hz, View.ld_unit_zero (S := S1024x1) body_hz, View.ld_unit_zero (S := S1024x512) body_hz, View.ld_unit_zero (S := S512x512) body_hz, View.ld_unit_zero (S := S1x512) body_hz]

/-! ## The inputs' staging buffers hold their blocks

An input window's block is left in place by the body, so its current buffer holds the point's block whether the
pipeline fetched it at this point or at an earlier one with the same block index. -/

theorem body_before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

theorem body_before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

theorem body_before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem body_before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The obligation at a generic point -/

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold the point's blocks; the column group says which of the three
    runs applies. At column group 0 the scratch vectors are reset, so whatever they held (anything at the very first
    point, the previous row group's result later) is forgotten; elsewhere they hold what the point before left and
    are combined with this point's group maximum and minimum. Away from column group 15 the outputs' buffers are
    handed back as found; at column group 15 they receive the accumulation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [body_before0, body_before1, body_before2, body_before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  have hN : t.val < 128 := lt_of_lt_of_eq t.isLt (show cfg0.N = 128 from N_0)
  by_cases h0 : t.val % 16 = 0
  · have h1 : ¬t.val % 16 = 15 := by omega
    have hc1 : cond1 (grid0.coords t) := (hcond1 t).mpr h0
    have hc2 : ¬cond2 (grid0.coords t) := fun h => h1 ((hcond2 t).mp h)
    rw [Dat.leavesExact_idle (dats m 0 c) 4 t (idle4 t hc2) (noFlush4 t hc2)]
    rw [Dat.leavesExact_idle (dats m 0 c) 5 t (idle5 t hc2) (noFlush5 t hc2)]
    rw [accAt_reset m c t h0]
    unfold bmax bmin; dsimp only
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (body_run_reset c (grid0.coords t) _ _ _ _ _ _ _ _ _ _ _ _ _ _ _ _ hc1 hc2 (qblk m c t) (kblk m c t) (qlbl m c t) (klbl m c t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (body_run_reset c (grid0.coords t) _ _ _ _ _ _ _ _ _ _ _ _ _ _ _ _ hc1 hc2 (qblk m c t) (kblk m c t) (qlbl m c t) (klbl m c t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by omega)
    have hc1 : ¬cond1 (grid0.coords t) := fun h => h0 ((hcond1 t).mp h)
    rw [PhiS_castSucc m c t, PhiS_pos m c _ _ hz]
    by_cases h1 : t.val % 16 = 15
    · have hc2 : cond2 (grid0.coords t) := (hcond2 t).mpr h1
      rw [show (dats m 0 c).leavesExact 4 t = owns (c : Thread nD τ) (ms4 t) fullShare ((dats m 0 c).after 4 t) from by
        unfold Dat.leavesExact; rw [live4 t hc2], after4]
      rw [show (dats m 0 c).leavesExact 5 t = owns (c : Thread nD τ) (ms5 t) fullShare ((dats m 0 c).after 5 t) from by
        unfold Dat.leavesExact; rw [live5 t hc2], after5]
      rw [accAt_step m c t h0]
      unfold bmax bmin; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (body_run_last c (grid0.coords t) _ _ _ _ _ _ _ _ _ _ _ _ _ _ _ _ hc1 hc2 (qblk m c t) (kblk m c t) (qlbl m c t) (klbl m c t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid0.coords t) := fun h => h1 ((hcond2 t).mp h)
      rw [Dat.leavesExact_idle (dats m 0 c) 4 t (idle4 t hc2) (noFlush4 t hc2)]
      rw [Dat.leavesExact_idle (dats m 0 c) 5 t (idle5 t hc2) (noFlush5 t hc2)]
      rw [accAt_step m c t h0]
      unfold bmax bmin; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (body_run_middle c (grid0.coords t) _ _ _ _ _ _ _ _ _ _ _ _ _ _ _ _ hc1 hc2 (qblk m c t) (kblk m c t) (qlbl m c t) (klbl m c t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BLaunch.lean ====
import proofs.«114037_j2585570312417_1_alg».proof.Proof.BShare
import proofs.«114037_j2585570312417_1_alg».proof.Proof.BBody

/-!
  The whole run of the program, at any float instance: the two reshapes of the labels, the pipelined region, and
  the thirteen host operations after it.  Every weakly fair execution terminates; the six windows' arrays end at
  what the pipeline computes from the proof data (the inputs unchanged, the two outputs at the write-backs of
  the accumulation), and every other unscoped buffer ends at what the later host operations compute from the
  region's exit contents.  After the region the two halves of the points array are joined again, so that the
  later operations run over all the unscoped buffers at once.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The reshapes, the region, the later operations: @main reduces to the region continued by the later operations. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The contents at the region's exit and after the later operations -/

/-- Core `c`'s buffers when the region is left: the two output arrays at what the pipeline wrote back, every
    other buffer as the region found it. -/
def Wx (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

/-- And after the thirteen later operations. -/
def Wf (c : Dev nD) : Valuation τ sig (Elt F) := StableHlo.after hostOps1 (Wx m c)

theorem Wx_out0 (c : Dev nD) : Wx m c (Proc.devRef .tc main_v2_0) = (dats m 0 c).arrAt 4 cfg0.N := by
  unfold Wx
  rw [Function.update_of_ne (by decide), Function.update_self]

theorem Wx_out1 (c : Dev nD) : Wx m c (Proc.devRef .tc main_v2_1) = (dats m 0 c).arrAt 5 cfg0.N := by
  unfold Wx
  rw [Function.update_self]

theorem Wx_other (c : Dev nD) (b : Ref sig .tc) (h0 : b ≠ main_v2_0) (h1 : b ≠ main_v2_1) :
    Wx m c (Proc.devRef .tc b) = V m c b := by
  unfold Wx
  rw [Function.update_of_ne (fun e => h1 (Proc.devRef_injective _ e)), Function.update_of_ne (fun e => h0 (Proc.devRef_injective _ e))]

/-- Every window's array at the exit contents. -/
theorem Wx_arr (c : Dev nD) (w : Fin cfg0.W) :
    (dats m 0 c).arrAt w cfg0.N = Wx m c (Proc.devRef .tc (Pipeline.arrRef spec0 w)) := by
  match w with
  | ⟨0, _⟩ => exact ((dats m 0 c).arrAt_in _ rfl _).trans ((A_eq m c _).trans (Wx_other m c main_arg0 (by decide) (by decide)).symm)
  | ⟨1, _⟩ => exact ((dats m 0 c).arrAt_in _ rfl _).trans ((A_eq m c _).trans (Wx_other m c main_arg0 (by decide) (by decide)).symm)
  | ⟨2, _⟩ => exact ((dats m 0 c).arrAt_in _ rfl _).trans ((A_eq m c _).trans (Wx_other m c main_v0 (by decide) (by decide)).symm)
  | ⟨3, _⟩ => exact ((dats m 0 c).arrAt_in _ rfl _).trans ((A_eq m c _).trans (Wx_other m c main_v1 (by decide) (by decide)).symm)
  | ⟨4, _⟩ => exact (Wx_out0 m c).symm
  | ⟨5, _⟩ => exact (Wx_out1 m c).symm

/-! ## The later operations, run over all the unscoped buffers -/

/-- The buffers that are no window's array are as the region found them. -/
theorem rest_exit (c : Dev nD) :
    (Pipeline.unscopedRest spec0 c (V m c) : sProp 𝕄) = Pipeline.unscopedRest spec0 c (fun b => Wx m c (Proc.devRef .tc b)) := by
  unfold Pipeline.unscopedRest
  exact bigSep_congr fun b hb => by
    dsimp only
    rw [Wx_other m c b (fun e => (Finset.mem_sdiff.mp hb).2 (Finset.mem_image.mpr ⟨4, Finset.mem_univ _, e.symm⟩))
      (fun e => (Finset.mem_sdiff.mp hb).2 (Finset.mem_image.mpr ⟨5, Finset.mem_univ _, e.symm⟩))]

/-- None of the later operations writes a window's array. -/
theorem tail_keeps : ∀ op ∈ (hostOps1 : List (HloOp τ sig (Elt F))), ∀ w : Fin cfg0.W, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- So every window's array is at its exit contents after them too. -/
theorem Wf_arr (c : Dev nD) (w : Fin cfg0.W) :
    (dats m 0 c).arrAt w cfg0.N = Wf m c (Proc.devRef .tc (Pipeline.arrRef spec0 w)) := by
  unfold Wf
  rw [StableHlo.after_of_forall_not_mem _ _ fun op hop => tail_keeps op hop w]
  exact Wx_arr m c w

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The region's exit, arrays and bypassing buffers, is all the unscoped buffers held at the exit contents. -/
theorem held_of_exit (c : Dev nD) :
    iprop((dats m 0 c).arrays ((dats m 0 c).arrAt · cfg0.N) ∗ Pipeline.unscopedRest spec0 c (V m c))
      ⊢ (StableHlo.held (c : Thread nD τ) (Pipeline.ucRefs τ sig) (Wx m c) : sProp 𝕄) := by
  rw [← Pipeline.unscopedBufs_held, Pipeline.unscopedBufs_split₀ cfgs 0 winFacts₀0.arr_unscoped c, rest_exit]
  iintro ⟨Ha, Hr⟩
  isplitl [Ha]
  · iapply (bufs_of_arrays m c (fun b => Wx m c (Proc.devRef .tc b)) _ (Wx_arr m c)); iexact Ha
  iexact Hr

/-- And back, after the later operations. -/
theorem exit_of_held (c : Dev nD) :
    (StableHlo.held (c : Thread nD τ) (Pipeline.ucRefs τ sig) (Wf m c) : sProp 𝕄)
      ⊢ iprop((dats m 0 c).arrays ((dats m 0 c).arrAt · cfg0.N) ∗ Pipeline.unscopedRest spec0 c (fun b => Wf m c (Proc.devRef .tc b))) := by
  rw [← Pipeline.unscopedBufs_held, Pipeline.unscopedBufs_split₀ cfgs 0 winFacts₀0.arr_unscoped c]
  iintro ⟨Ha, Hr⟩
  isplitl [Ha]
  · iapply (arrays_of_bufs m c (fun b => Wf m c (Proc.devRef .tc b)) _ (Wf_arr m c)); iexact Ha
  iexact Hr

set_option backward.isDefEq.respectTransparency.types false in
/-- The later operations, from the region's exit to their own end. -/
theorem htail (c : Dev nD) (Q' : PUnit → sProp 𝕄) :
    iprop((iprop((dats m 0 c).arrays ((dats m 0 c).arrAt · cfg0.N) ∗ Pipeline.unscopedRest spec0 c (fun b => Wf m c (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c : Thread nD τ) none) Set.univ
          (Pipeline.chain [StableHlo.seq hostOps1]) Q' := by
  rw [← List.append_nil [StableHlo.seq (hostOps1 : List (HloOp τ sig (Elt F)))]]
  have key : iprop(boundary (c : Thread nD τ) ∗ (dats m 0 c).arrays ((dats m 0 c).arrAt · cfg0.N) ∗ Pipeline.unscopedRest spec0 c (V m c))
      ⊢ iprop(boundary (c : Thread nD τ) ∗ (StableHlo.held (c : Thread nD τ) (Pipeline.ucRefs τ sig) (Wx m c) : sProp 𝕄)) := by
    iintro ⟨Hb, Hah⟩
    isplitl [Hb]; · iexact Hb
    iapply (held_of_exit m c); iexact Hah
  iintro ⟨Hk, Hall⟩
  ihave Hbh := key $$ Hall
  iapply (Pipeline.wp_seqs_then (pcfgs (F := F)) defs₀ Variants.none c (Pipeline.ucRefs τ sig) [] [hostOps1] tail_sub tail_fresh (Wx m c)) $$ Hbh
  iintro ⟨-, Hh⟩
  rw [Pipeline.chain_nil, wp_pure]
  imodintro
  iapply Hk
  iapply (exit_of_held m c)
  simp only [List.flatten_cons, List.flatten_nil, List.append_nil]
  iexact Hh

/-! ## The launch -/

/-- After the last point the invariant gives the class invariant back: what the scratch vectors hold is forgotten. -/
theorem Phi_out (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨HM, HN⟩, Hg⟩
  isplitl [HM HN]
  · isplitl [HM]
    · iexists _; iexact HM
    · iexists _; iexact HN
  iexact Hg

set_option backward.isDefEq.respectTransparency.types false in
/-- From any memory with zero counters every weakly fair execution of @main terminates; the windows' arrays end at
    what the pipeline computes from the proof data and every other unscoped buffer at what the later operations
    compute from the region's exit contents. -/
theorem run_main : θ_run (defs (F := F)) (onTc (τ := τ) (main (F := F))) (s₀ m ρ) (fun r => ∀ c : Dev nD,
      (∀ w, r.2.mem ((cfg0.spec w).arr.view.loc (c : Thread nD τ)) = (dats m 0 c).arrAt w cfg0.N)
      ∧ ∀ b ∈ Pipeline.restRefs sig spec0, r.2.mem ((c : Thread nD τ).loc b) = Wf m c (Proc.devRef .tc b)) := by
  classical
  exact Pipeline.θ_run_region_pf_tail (pcfgs (F := F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (pcfgs (F := F)) (fun q => (cfgs q).toPCfg_adm)) cellOf_inj)
      (Pipeline.launchToks (Pipeline.pin (pcfgs (F := F)) (fun q => (cfgs q).toPCfg_adm)) cellOf_inj))
    (hu₀ := by
      iintro Hu; imodintro
      isplitl [Hu]
      · iapply (show (ownU _ : sProp 𝕄) ⊢ BI.own (emb₁ (initOf (Pipeline.cells (Pipeline.pin (pcfgs (F := F)) (fun q => (cfgs q).toPCfg_adm)) cellOf_inj)
          (Pipeline.launchToks (Pipeline.pin (pcfgs (F := F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => arrays_of_bufs m c (V m c) _ (fun w => A_eq m c w))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) (pcfgs (F := F) 0).pre spec0 c (V m c))
    (Z' := fun c => Pipeline.unscopedRestP (Ix := Unit) (Name := ℕ) (U := UR sig nD τ) (Lvl := ℕ) (pcfgs (F := F) 0).pre spec0 c (fun b => Wf m c (Proc.devRef .tc b)))
    (hX := fun c => by
      iintro ⟨HU, -, -, -, Hp, -⟩; imodintro
      isplitl [Hp]; · iexists _; iexact Hp
      iexact HU)
    (hin := fun c => by
      rw [show (dats m 0 c).Φ 0 = Pipeline.ΦA spec0 c from rfl]
      unfold Pipeline.ΦA
      iintro ⟨Hp, -, Hr⟩
      isplitl [Hr]; · iexact Hr
      iexact Hp)
    (hout := fun c => (Phi_out m c).trans (by
      rw [Pipeline.ownSems0_none]; unfold Pipeline.ΦA
      iintro ⟨Hr, Hp⟩
      isplitl [Hp]; · iexact Hp
      isplitr; · iempintro
      iexact Hr))
    (htail := fun c Q' => by
      rw [show (pcfgs (F := F) 0).pre = Pipeline.Prefetch.none from rfl, Pipeline.unscopedRestP_none, Pipeline.unscopedRestP_none]
      exact htail m c Q')
    (QY := fun c s => ∀ b ∈ Pipeline.restRefsP sig (pcfgs (F := F) 0).pre spec0, s.mem ((c : Thread nD τ).loc b) = Wf m c (Proc.devRef .tc b))
    (hY := fun c s' => by
      iintro ⟨-, HU, HSI⟩
      unfold Pipeline.unscopedRestP
      imodintro
      iapply (pointsTo_read_all (Pipeline.restRefsP sig (pcfgs (F := F) 0).pre spec0) (fun b => (c : Thread nD τ).loc b) (fun b => Wf m c (Proc.devRef .tc b)) s')
      isplitl [HU] <;> iassumption)
    (hQ := fun s h c => ⟨(h c).1, fun b hb => (h c).2.2 b (Finset.mem_sdiff.mpr ⟨hb, fun h' => by
      obtain ⟨k, -, -⟩ := Finset.mem_image.mp h'; exact k.elim0⟩)⟩)

/-! ## The frame, and the result -/

/-- The points are not touched by the reshapes before the region. -/
theorem V_pts (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes,
      Finset.mem_singleton]
    repeat' apply And.intro
    all_goals exact StableHlo.devRef_ne_of_ne (by decide)))

/-- Nor are the labels. -/
theorem V_lbl (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes,
      Finset.mem_singleton]
    repeat' apply And.intro
    all_goals exact StableHlo.devRef_ne_of_ne (by decide)))

/-- None of the later operations writes the labels. -/
theorem tail_keeps_lbl : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

/-- So the labels end as they were at launch. -/
theorem Wf_lbl (c : Dev nD) : Wf m c (Proc.devRef .tc main_arg1) = m ((c : Thread nD τ).loc main_arg1) := by
  unfold Wf
  rw [StableHlo.after_of_forall_not_mem _ _ fun op hop => tail_keeps_lbl op hop, Wx_other m c main_arg1 (by decide) (by decide)]
  exact V_lbl m c

/-- The program runs to the end, faults nowhere, and leaves the points and the labels unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 0).trans (((dats m 0 c).arrAt_in 0 rfl _).trans ((A_eq m c 0).trans (V_pts m c))),
     ((h c).2 main_arg1 (Pipeline.mem_restRefs_of main_arg1 rfl (by decide))).trans (Wf_lbl m c)⟩) (run_main m ρ)

/-- The later operations as one function of the two output arrays: flatten both, subtract, add the margin, clamp at
    zero, sum, divide by 8192. -/
def tailK (a4 a5 : FVec F S8192x1 .f32) : FVec F S_ .f32 :=
  Host.divf (Host.reduceAdd (maximumf (addf (subf (shapeCast S8192 a4 shapeCasts_S8192x1_S8192) (shapeCast S8192 a5 shapeCasts_S8192x1_S8192))
      (broadcastInDim S8192 ![] bcast_S_S8192 (constant S_ .f32 0x3E99999A#32)))
      (broadcastInDim S8192 ![] bcast_S_S8192 (constant S_ .f32 0x00000000#32)))
    (constant S_ .f32 0x00000000#32) reducesTo_S8192_S_d0 h_S_) (constant S_ .f32 0x46000000#32)

/-- The result buffer ends at that function of the two output arrays. -/
theorem Wf_res (c : Dev nD) :
    Wf m c (Proc.devRef .tc main_v11) = tailK ((dats m 0 c).arrAt 4 cfg0.N) ((dats m 0 c).arrAt 5 cfg0.N) := by
  unfold Wf
  after_results
  rw [Wx_out0, Wx_out1]
  rfl

end Cert.Kernel.Hand

end
-- ==== Proof.KData.lean ====
import proofs.«114037_j2585570312417_1_alg».proof.Proof.Gen.KernelIdeal.Launch
import proofs.«114037_j2585570312417_1_alg».proof.Proof.Gen.KernelIdeal.Skeleton
import proofs.«114037_j2585570312417_1_alg».proof.Proof.Gen.KernelIdeal.Points
import Idealize.ShloMosaic.Lib.Pipeline.FrameBody
import Idealize.ShloMosaic.Lib.Pipeline.FrameSuffix
import Idealize.ShloMosaic.Lib.Tactic

/-!
  The proof data of the pairwise hard-mining kernel, at any float instance.

  The grid is 8 row groups by 16 column groups, 128 points in row-major order: point `t` works on row group
  `t / 16` and column group `t % 16`.  Two scratch vectors of 1024 entries carry, per row of the group, the
  running maximum of the masked distances and the running minimum: they are reset to -inf and +inf when
  the column group is 0 and combined with the point's group maximum and minimum at every point, and only at
  column group 15 are they copied to the two output blocks, which are written back there.  `accAt` is that
  recursion over the points; the invariant between points says the scratch vectors hold its value.
  Windows 0 and 1 read the SAME array (the points) at different blocks, so each holds half of the array's share.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers as the region finds them -/

/-- Core `c`'s buffer contents when the region is entered: after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 1024 rows of the point's row group. -/
abbrev qblk (c : Dev nD) (t : Fin cfg0.N) : Vec F S1024x512 .f32 := iblk m c 0 t
/-- The 512 rows of the point's column group. -/
abbrev kblk (c : Dev nD) (t : Fin cfg0.N) : Vec F S512x512 .f32 := iblk m c 1 t
/-- The labels of the row group, as a column. -/
abbrev qlbl (c : Dev nD) (t : Fin cfg0.N) : Vec F S1024x1 .i32 := iblk m c 2 t
/-- The labels of the column group, as a row. -/
abbrev klbl (c : Dev nD) (t : Fin cfg0.N) : Vec F S1x512 .i32 := iblk m c 3 t

/-! ## The accumulation over the points -/

/-- The point's group maximum of the masked distances, per row. -/
def bmax (c : Dev nD) (t : Fin cfg0.N) : FVec F S1024x1 .f32 := k0_pay7 (qblk m c t) (kblk m c t) (qlbl m c t) (klbl m c t)
/-- The point's group minimum, per row. -/
def bmin (c : Dev nD) (t : Fin cfg0.N) : FVec F S1024x1 .f32 := k0_pay8 (qblk m c t) (kblk m c t) (qlbl m c t) (klbl m c t)

/-- What the two scratch vectors hold after the body at position `n`: reset and combined at the first column
    group, combined with what the position before left at the others. -/
def accAt (c : Dev nD) : (n : ℕ) → n < cfg0.N → FVec F S1024x1 .f32 × FVec F S1024x1 .f32
  | 0, hn => (k0_pay1 (bmax m c ⟨0, hn⟩) (k0_pay3 (F := F)), k0_pay2 (bmin m c ⟨0, hn⟩) (k0_pay4 (F := F)))
  | n + 1, hn =>
    if (n + 1) % 16 = 0 then
      (k0_pay1 (bmax m c ⟨n + 1, hn⟩) (k0_pay3 (F := F)), k0_pay2 (bmin m c ⟨n + 1, hn⟩) (k0_pay4 (F := F)))
    else
      (k0_pay1 (bmax m c ⟨n + 1, hn⟩) (accAt c n (Nat.lt_of_succ_lt hn)).1, k0_pay2 (bmin m c ⟨n + 1, hn⟩) (accAt c n (Nat.lt_of_succ_lt hn)).2)

/-- At a point of column group 0: reset, then combined. -/
theorem accAt_reset (c : Dev nD) (t : Fin cfg0.N) (h0 : t.val % 16 = 0) :
    accAt m c t.val t.isLt = (k0_pay1 (bmax m c t) (k0_pay3 (F := F)), k0_pay2 (bmin m c t) (k0_pay4 (F := F))) := by
  obtain ⟨n, hn⟩ := t
  cases n with
  | zero => rfl
  | succ n => exact (if_pos h0)

/-- At any other point: combined with what the point before left. -/
theorem accAt_step (c : Dev nD) (t : Fin cfg0.N) (h0 : ¬t.val % 16 = 0) :
    accAt m c t.val t.isLt = (k0_pay1 (bmax m c t) (accAt m c (t.val - 1) (Nat.lt_of_le_of_lt (Nat.sub_le _ _) t.isLt)).1,
      k0_pay2 (bmin m c t) (accAt m c (t.val - 1) (Nat.lt_of_le_of_lt (Nat.sub_le _ _) t.isLt)).2) := by
  obtain ⟨n, hn⟩ := t
  cases n with
  | zero => exact absurd (Nat.zero_mod _) h0
  | succ n => exact (if_neg h0)

/-! ## The schedule, decided over the grid -/

/-- The reset branch is taken exactly at column group 0. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 16 = 0 :=
  (by decide +kernel : ∀ t : Fin grid0.N, cond1 (grid0.coords t) ↔ t.val % 16 = 0)
/-- The copy-out branch is taken exactly at column group 15. -/
abbrev cond2 (i : grid0.Coords) : Prop := k0_cond2 i = 1#1
theorem hcond2 : ∀ t : Fin cfg0.N, cond2 (grid0.coords t) ↔ t.val % 16 = 15 :=
  (by decide +kernel : ∀ t : Fin grid0.N, cond2 (grid0.coords t) ↔ t.val % 16 = 15)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The outputs are idle, and not written back, away from column group 15; live there. -/
theorem idle4 : ∀ t : Fin cfg0.N, ¬cond2 (grid0.coords t) → cfg0.idle 4 (grid0.coords t) = true := by decide +kernel
theorem idle5 : ∀ t : Fin cfg0.N, ¬cond2 (grid0.coords t) → cfg0.idle 5 (grid0.coords t) = true := by decide +kernel
theorem noFlush4 : ∀ t : Fin cfg0.N, ¬cond2 (grid0.coords t) → (cfg0.win 4).flush t = false := by decide +kernel
theorem noFlush5 : ∀ t : Fin cfg0.N, ¬cond2 (grid0.coords t) → (cfg0.win 5).flush t = false := by decide +kernel
theorem live4 : ∀ t : Fin cfg0.N, cond2 (grid0.coords t) → cfg0.idle 4 (grid0.coords t) = false := by decide +kernel
theorem live5 : ∀ t : Fin cfg0.N, cond2 (grid0.coords t) → cfg0.idle 5 (grid0.coords t) = false := by decide +kernel

/-! ## The memrefs the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
/-- The two scratch vectors. -/
abbrev scM : Memref sig .tc .vmem S1024x1 .f32 := Memref.whole cc0_scratch0
abbrev scN : Memref sig .tc .vmem S1024x1 .f32 := Memref.whole cc0_scratch1

/-! ## The invariant between points -/

/-- Before the first point the scratch vectors hold anything; afterwards what the point before left. -/
def PhiS (c : Dev nD) : (n : ℕ) → n ≤ cfg0.N → sProp 𝕄
  | 0, _ => Pipeline.ΦA spec0 c
  | n + 1, hn => iprop(iprop(owns (c : Thread nD τ) scM fullShare ((accAt m c n hn).1) ∗ owns (c : Thread nD τ) scN fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((accAt m c n hn).1) ∗ owns (c : Thread nD τ) scN fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((accAt m c (n - 1) (by omega)).1) ∗ owns (c : Thread nD τ) scN fullShare ((accAt m c (n - 1) (by omega)).2)) ∗ (∃ r, prngReg c r)) := by
  cases n with
  | zero => exact absurd rfl hz
  | succ n => rfl

/-- The class invariant with the scratch vectors as memrefs owned at some contents. -/
theorem PhiA_eq (c : Dev nD) :
    (Pipeline.ΦA spec0 c : sProp 𝕄)
      = iprop(iprop((∃ d, owns (c : Thread nD τ) scM fullShare d) ∗ (∃ d, owns (c : Thread nD τ) scN fullShare d)) ∗ (∃ r, prngReg c r)) := by
  unfold Pipeline.ΦA; rw [scopedRest0_eq]; simp only [scM, scN, owns_whole]; try rfl

/-! ## The proof data -/

/-- The arrays as the region finds them; each input's buffer at its block after the body, the outputs' at the
    accumulation; the invariant `PhiS`; the points array's share dealt half and half to the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).1
    | ⟨5, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (accAt m c t.val t.isLt).1 := by dsimp only [dats]
theorem after5 (c : Dev nD) (t : Fin cfg0.N) : (dats m 0 c).after 5 t = (accAt m c t.val t.isLt).2 := by dsimp only [dats]

end Cert.KernelIdeal.Hand

end
-- ==== Proof.KShare.lean ====
import proofs.«114037_j2585570312417_1_alg».proof.Proof.KData

/-!
  Windows 0 and 1 read one array, the points.  The launch hands the region the five DISTINCT buffers behind the six
  windows, each whole at the full share; the pipeline holds one points-to per window.  The two agree once the
  points array's full share is split into its two halves, one per window on it, and conversely the two halves,
  holding the same contents, join to the full share.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The distinct buffers behind the six windows. -/
theorem arrRefs_eq : (Finset.univ.image (Pipeline.arrRef spec0) : Finset (Ref sig .tc)) = [main_arg0, main_v0, main_v1, main_v2_0, main_v2_1].toFinset := by
  decide

/-- Those five buffers, one by one. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_v0) ↦{fullShare} Vv main_v0)
          ∗ (((c : Thread nD τ).loc main_v1) ↦{fullShare} Vv main_v1) ∗ (((c : Thread nD τ).loc main_v2_0) ↦{fullShare} Vv main_v2_0)
          ∗ (((c : Thread nD τ).loc main_v2_1) ↦{fullShare} Vv main_v2_1)) := by
  unfold Pipeline.arrBufs
  exact bigSep_eq_bigSepL_of_eq [main_arg0, main_v0, main_v1, main_v2_0, main_v2_1] arrRefs_eq (by decide) _

/-- The pipeline's arrays, window by window, each at its share. -/
theorem arrays_eq6 (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2) ∗ (((c : Thread nD τ).loc main_v1) ↦{fullShare} Fa 3)
          ∗ (((c : Thread nD τ).loc main_v2_0) ↦{fullShare} Fa 4) ∗ (((c : Thread nD τ).loc main_v2_1) ↦{fullShare} Fa 5)) := by
  have h : ((dats m 0 c).arrays Fa : sProp 𝕄)
      = bigSep Finset.univ fun w : Fin cfg0.W => (((c : Thread nD τ).loc (Pipeline.arrRef spec0 w)) ↦{(dats m 0 c).share w} Fa w : sProp 𝕄) := by
    unfold Dat.arrays
    exact bigSep_congr fun w _ => by rw [(arr_whole0 w).set_eq_univ]
  rw [h, bigSep_W0]
  rfl

/-- The buffers behind the arrays at `Vv` make the pipeline's arrays at the same contents: the points array's full
    share splits into the halves of the two windows on it. -/
theorem arrays_of_bufs (c : Dev nD) (Vv : (b : Ref sig .tc) → Buf (Elt F) ((c : Thread nD τ).loc b))
    (Fa : (w : Fin cfg0.W) → Buf (Elt F) ((cfg0.win w).arr.view.loc (c : Thread nD τ))) (hF : ∀ w, Fa w = Vv (Pipeline.arrRef spec0 w)) :
    (Pipeline.arrBufs spec0 c Vv : sProp 𝕄) ⊢ (dats m 0 c).arrays Fa := by
  rw [arrBufs_eq, arrays_eq6, hF 0, hF 1, hF 2, hF 3, hF 4, hF 5]
  iintro ⟨H0, H2, H3, H4, H5⟩
  ihave H01 := (pointsTo_share (PosShare.mem_left_op_right fullShare)).1 $$ H0
  icases H01 with ⟨Ha, Hb⟩
  isplitl [Ha]; · iexact Ha
  isplitl [Hb]; · iexact Hb
  isplitl [H2]; · iexact H2
  isplitl [H3]; · iexact H3
  isplitl [H4]; · iexact H4
  iexact H5

/-- And back: the two halves of the points array, at the same contents, join. -/
theorem bufs_of_arrays (c : Dev nD) (Vv : (b : Ref sig .tc) → Buf (Elt F) ((c : Thread nD τ).loc b))
    (Fa : (w : Fin cfg0.W) → Buf (Elt F) ((cfg0.win w).arr.view.loc (c : Thread nD τ))) (hF : ∀ w, Fa w = Vv (Pipeline.arrRef spec0 w)) :
    ((dats m 0 c).arrays Fa : sProp 𝕄) ⊢ Pipeline.arrBufs spec0 c Vv := by
  rw [arrBufs_eq, arrays_eq6, hF 0, hF 1, hF 2, hF 3, hF 4, hF 5]
  iintro ⟨Ha, Hb, H2, H3, H4, H5⟩
  isplitl [Ha Hb]
  · iapply (pointsTo_share (PosShare.mem_left_op_right fullShare)).2
    isplitl [Ha]; · iexact Ha
    iexact Hb
  isplitl [H2]; · iexact H2
  isplitl [H3]; · iexact H3
  isplitl [H4]; · iexact H4
  iexact H5

end Cert.KernelIdeal.Hand

end
-- ==== Proof.KBody.lean ====
import proofs.«114037_j2585570312417_1_alg».proof.Proof.KData
import Idealize.ShloMosaic.Lib.Pipeline.Value

/-! The body at one point: from the inputs' staging buffers at their blocks and the scratch vectors at what the
    point before left, it runs to the scratch vectors at the point's accumulation, the outputs' staging
    buffers untouched away from column group 15 and holding the accumulation there. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The body on any whole buffers, by column group

Every access of the body is of a whole buffer. Column group 0 first resets the two scratch vectors; every column
group then replaces them by their entrywise maximum, resp. minimum, with the point's group maximum and minimum of
the masked distances; column group 15 finally copies them to the two output buffers. No point is in both column
group 0 and column group 15, so there are three runs, each with the contents every buffer ends at written out. -/

/-- The zero offsets of a whole-buffer access, however spelt. -/
theorem body_hz : (![0, 0] : Fin 2 → Nat) = fun _ => 0 := funext fun a => by fin_cases a <;> rfl

/-- After a list of stores whose last goes through the whole-buffer rectangle, the buffer reads that store's
    payload, whatever it held and whatever was stored before. -/
theorem body_read_writes_last_whole {sg : RefSig} {κ : Kind} {sp : Space} {S : Shape} {e : EltTy} {Val : EltTy → Type} [∀ e, Nonempty (Val e)]
    (v : View sg κ sp S e) (f : v.ty.Contents Val) {off : Fin S.rank → Nat} (h0 : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h0 inb y⟩),
    View.canon_cons_unit_zero h0]

set_option maxHeartbeats 4000000 in
/-- A point of a column group strictly between 0 and 15: the scratch vectors are combined with the point's group
    maximum and minimum; everything else is handed back as found. -/
theorem body_run_middle (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc1 : ¬cond1 i) (hc2 : ¬cond2 i)
    (x0 : Vec F S1024x512 .f32) (x1 : Vec F S512x512 .f32) (x2 : Vec F S1024x1 .i32) (x3 : Vec F S1x512 .i32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay1 (k0_pay7 x0 x1 x2 x3) xs0) ∗ owns (c : Thread nD τ) arg9 fullShare (k0_pay2 (k0_pay8 x0 x1 x2 x3) xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [HS0]
  · iexists _; isplitr
    swap; · iexact HS0
    ipureintro
    sl_unfold_run_names
    rw [body_read_writes_last_whole _ _ body_hz]
    simp only [View.readAt_eq_ld, hf0, hf1, hf2, hf3, hfs0, View.readCov_unit_zero (S := S1024x1) _ body_hz, View.ld_unit_zero (S := S1024x1) body_hz, View.ld_unit_zero (S := S1024x512) body_hz, View.ld_unit_zero (S := S512x512) body_hz, View.ld_unit_zero (S := S1x512) body_hz]
  iexists _; isplitr
  swap; · iexact HS1
  ipureintro
  sl_unfold_run_names
  rw [body_read_writes_last_whole _ _ body_hz]
  simp only [View.readAt_eq_ld, hf0, hf1, hf2, hf3, hfs1, View.readCov_unit_zero (S := S1024x1) _ body_hz, View.ld_unit_zero (S := S1024x1) body_hz, View.ld_unit_zero (S := S1024x512) body_hz, View.ld_unit_zero (S := S512x512) body_hz, View.ld_unit_zero (S := S1x512) body_hz]

set_option maxHeartbeats 4000000 in
/-- A point of column group 0: the scratch vectors, whatever they held, are reset to -inf and +inf and then combined
    with the point's group maximum and minimum; everything else is handed back as found. -/
theorem body_run_reset (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc1 : cond1 i) (hc2 : ¬cond2 i)
    (x0 : Vec F S1024x512 .f32) (x1 : Vec F S512x512 .f32) (x2 : Vec F S1024x1 .i32) (x3 : Vec F S1x512 .i32)
    (xi4 xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay1 (k0_pay7 x0 x1 x2 x3) (k0_pay3 (F := F))) ∗ owns (c : Thread nD τ) arg9 fullShare (k0_pay2 (k0_pay8 x0 x1 x2 x3) (k0_pay4 (F := F)))) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [HS0]
  · iexists _; isplitr
    swap; · iexact HS0
    ipureintro
    sl_unfold_run_names
    rw [body_read_writes_last_whole _ _ body_hz]
    simp only [View.readAt_eq_ld, hf0, hf1, hf2, hf3, View.readCov_unit_zero (S := S1024x1) _ body_hz, View.ld_unit_zero (S := S1024x1) body_hz, View.ld_unit_zero (S := S1024x512) body_hz, View.ld_unit_zero (S := S512x512) body_hz, View.ld_unit_zero (S := S1x512) body_hz]
  iexists _; isplitr
  swap; · iexact HS1
  ipureintro
  sl_unfold_run_names
  rw [body_read_writes_last_whole _ _ body_hz]
  simp only [View.readAt_eq_ld, hf0, hf1, hf2, hf3, View.readCov_unit_zero (S := S1024x1) _ body_hz, View.ld_unit_zero (S := S1024x1) body_hz, View.ld_unit_zero (S := S1024x512) body_hz, View.ld_unit_zero (S := S512x512) body_hz, View.ld_unit_zero (S := S1x512) body_hz]

set_option maxHeartbeats 4000000 in
/-- A point of column group 15: the scratch vectors are combined with the point's group maximum and minimum and then
    copied to the two output buffers, whatever those held. -/
theorem body_run_last (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc1 : ¬cond1 i) (hc2 : cond2 i)
    (x0 : Vec F S1024x512 .f32) (x1 : Vec F S512x512 .f32) (x2 : Vec F S1024x1 .i32) (x3 : Vec F S1x512 .i32)
    (xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 (k0_pay7 x0 x1 x2 x3) xs0) ∗ owns (c : Thread nD τ) arg7 fullShare (k0_pay2 (k0_pay8 x0 x1 x2 x3) xs1)
            ∗ owns (c : Thread nD τ) arg8 fullShare (k0_pay1 (k0_pay7 x0 x1 x2 x3) xs0) ∗ owns (c : Thread nD τ) arg9 fullShare (k0_pay2 (k0_pay8 x0 x1 x2 x3) xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [body_read_writes_last_whole _ _ body_hz]
    simp only [View.readAt_eq_ld, hf0, hf1, hf2, hf3, hfs0, View.readCov_unit_zero (S := S1024x1) _ body_hz, View.ld_unit_zero (S := S1024x1) body_hz, View.ld_unit_zero (S := S1024x512) body_hz, View.ld_unit_zero (S := S512x512) body_hz, View.ld_unit_zero (S := S1x512) body_hz]
  isplitl [H5]
  · iexists _; isplitr
    swap; · iexact H5
    ipureintro
    sl_unfold_run_names
    rw [body_read_writes_last_whole _ _ body_hz]
    simp only [View.readAt_eq_ld, hf0, hf1, hf2, hf3, hfs1, View.readCov_unit_zero (S := S1024x1) _ body_hz, View.ld_unit_zero (S := S1024x1) body_hz, View.ld_unit_zero (S := S1024x512) body_hz, View.ld_unit_zero (S := S512x512) body_hz, View.ld_unit_zero (S := S1x512) body_hz]
  isplitl [HS0]
  · iexists _; isplitr
    swap; · iexact HS0
    ipureintro
    sl_unfold_run_names
    rw [body_read_writes_last_whole _ _ body_hz]
    simp only [View.readAt_eq_ld, hf0, hf1, hf2, hf3, hfs0, View.readCov_unit_zero (S := S1024x1) _ body_hz, View.ld_unit_zero (S := S1024x1) body_hz, View.ld_unit_zero (S := S1024x512) body_hz, View.ld_unit_zero (S := S512x512) body_hz, View.ld_unit_zero (S := S1x512) body_hz]
  iexists _; isplitr
  swap; · iexact HS1
  ipureintro
  sl_unfold_run_names
  rw [body_read_writes_last_whole _ _ body_hz]
  simp only [View.readAt_eq_ld, hf0, hf1, hf2, hf3, hfs1, View.readCov_unit_zero (S := S1024x1) _ body_hz, View.ld_unit_zero (S := S1024x1) body_hz, View.ld_unit_zero (S := S1024x512) body_hz, View.ld_unit_zero (S := S512x512) body_hz, View.ld_unit_zero (S := S1x512) body_hz]

/-! ## The inputs' staging buffers hold their blocks

An input window's block is left in place by the body, so its current buffer holds the point's block whether the
pipeline fetched it at this point or at an earlier one with the same block index. -/

theorem body_before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

theorem body_before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

theorem body_before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem body_before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The obligation at a generic point -/

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold the point's blocks; the column group says which of the three
    runs applies. At column group 0 the scratch vectors are reset, so whatever they held (anything at the very first
    point, the previous row group's result later) is forgotten; elsewhere they hold what the point before left and
    are combined with this point's group maximum and minimum. Away from column group 15 the outputs' buffers are
    handed back as found; at column group 15 they receive the accumulation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [body_before0, body_before1, body_before2, body_before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  have hN : t.val < 128 := lt_of_lt_of_eq t.isLt (show cfg0.N = 128 from N_0)
  by_cases h0 : t.val % 16 = 0
  · have h1 : ¬t.val % 16 = 15 := by omega
    have hc1 : cond1 (grid0.coords t) := (hcond1 t).mpr h0
    have hc2 : ¬cond2 (grid0.coords t) := fun h => h1 ((hcond2 t).mp h)
    rw [Dat.leavesExact_idle (dats m 0 c) 4 t (idle4 t hc2) (noFlush4 t hc2)]
    rw [Dat.leavesExact_idle (dats m 0 c) 5 t (idle5 t hc2) (noFlush5 t hc2)]
    rw [accAt_reset m c t h0]
    unfold bmax bmin; dsimp only
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (body_run_reset c (grid0.coords t) _ _ _ _ _ _ _ _ _ _ _ _ _ _ _ _ hc1 hc2 (qblk m c t) (kblk m c t) (qlbl m c t) (klbl m c t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (body_run_reset c (grid0.coords t) _ _ _ _ _ _ _ _ _ _ _ _ _ _ _ _ hc1 hc2 (qblk m c t) (kblk m c t) (qlbl m c t) (klbl m c t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by omega)
    have hc1 : ¬cond1 (grid0.coords t) := fun h => h0 ((hcond1 t).mp h)
    rw [PhiS_castSucc m c t, PhiS_pos m c _ _ hz]
    by_cases h1 : t.val % 16 = 15
    · have hc2 : cond2 (grid0.coords t) := (hcond2 t).mpr h1
      rw [show (dats m 0 c).leavesExact 4 t = owns (c : Thread nD τ) (ms4 t) fullShare ((dats m 0 c).after 4 t) from by
        unfold Dat.leavesExact; rw [live4 t hc2], after4]
      rw [show (dats m 0 c).leavesExact 5 t = owns (c : Thread nD τ) (ms5 t) fullShare ((dats m 0 c).after 5 t) from by
        unfold Dat.leavesExact; rw [live5 t hc2], after5]
      rw [accAt_step m c t h0]
      unfold bmax bmin; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (body_run_last c (grid0.coords t) _ _ _ _ _ _ _ _ _ _ _ _ _ _ _ _ hc1 hc2 (qblk m c t) (kblk m c t) (qlbl m c t) (klbl m c t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid0.coords t) := fun h => h1 ((hcond2 t).mp h)
      rw [Dat.leavesExact_idle (dats m 0 c) 4 t (idle4 t hc2) (noFlush4 t hc2)]
      rw [Dat.leavesExact_idle (dats m 0 c) 5 t (idle5 t hc2) (noFlush5 t hc2)]
      rw [accAt_step m c t h0]
      unfold bmax bmin; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (body_run_middle c (grid0.coords t) _ _ _ _ _ _ _ _ _ _ _ _ _ _ _ _ hc1 hc2 (qblk m c t) (kblk m c t) (qlbl m c t) (klbl m c t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KLaunch.lean ====
import proofs.«114037_j2585570312417_1_alg».proof.Proof.KShare
import proofs.«114037_j2585570312417_1_alg».proof.Proof.KBody

/-!
  The whole run of the program, at any float instance: the two reshapes of the labels, the pipelined region, and
  the thirteen host operations after it.  Every weakly fair execution terminates; the six windows' arrays end at
  what the pipeline computes from the proof data (the inputs unchanged, the two outputs at the write-backs of
  the accumulation), and every other unscoped buffer ends at what the later host operations compute from the
  region's exit contents.  After the region the two halves of the points array are joined again, so that the
  later operations run over all the unscoped buffers at once.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The reshapes, the region, the later operations: @main reduces to the region continued by the later operations. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0] [hostOps1] (by simp only [List.Forall]; exact hostOps0_sub)
    (by simp only [List.Forall]; exact hostOps0_fresh) main_chain

/-! ## The contents at the region's exit and after the later operations -/

/-- Core `c`'s buffers when the region is left: the two output arrays at what the pipeline wrote back, every
    other buffer as the region found it. -/
def Wx (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

/-- And after the thirteen later operations. -/
def Wf (c : Dev nD) : Valuation τ sig (Elt F) := StableHlo.after hostOps1 (Wx m c)

theorem Wx_out0 (c : Dev nD) : Wx m c (Proc.devRef .tc main_v2_0) = (dats m 0 c).arrAt 4 cfg0.N := by
  unfold Wx
  rw [Function.update_of_ne (by decide), Function.update_self]

theorem Wx_out1 (c : Dev nD) : Wx m c (Proc.devRef .tc main_v2_1) = (dats m 0 c).arrAt 5 cfg0.N := by
  unfold Wx
  rw [Function.update_self]

theorem Wx_other (c : Dev nD) (b : Ref sig .tc) (h0 : b ≠ main_v2_0) (h1 : b ≠ main_v2_1) :
    Wx m c (Proc.devRef .tc b) = V m c b := by
  unfold Wx
  rw [Function.update_of_ne (fun e => h1 (Proc.devRef_injective _ e)), Function.update_of_ne (fun e => h0 (Proc.devRef_injective _ e))]

/-- Every window's array at the exit contents. -/
theorem Wx_arr (c : Dev nD) (w : Fin cfg0.W) :
    (dats m 0 c).arrAt w cfg0.N = Wx m c (Proc.devRef .tc (Pipeline.arrRef spec0 w)) := by
  match w with
  | ⟨0, _⟩ => exact ((dats m 0 c).arrAt_in _ rfl _).trans ((A_eq m c _).trans (Wx_other m c main_arg0 (by decide) (by decide)).symm)
  | ⟨1, _⟩ => exact ((dats m 0 c).arrAt_in _ rfl _).trans ((A_eq m c _).trans (Wx_other m c main_arg0 (by decide) (by decide)).symm)
  | ⟨2, _⟩ => exact ((dats m 0 c).arrAt_in _ rfl _).trans ((A_eq m c _).trans (Wx_other m c main_v0 (by decide) (by decide)).symm)
  | ⟨3, _⟩ => exact ((dats m 0 c).arrAt_in _ rfl _).trans ((A_eq m c _).trans (Wx_other m c main_v1 (by decide) (by decide)).symm)
  | ⟨4, _⟩ => exact (Wx_out0 m c).symm
  | ⟨5, _⟩ => exact (Wx_out1 m c).symm

/-! ## The later operations, run over all the unscoped buffers -/

/-- The buffers that are no window's array are as the region found them. -/
theorem rest_exit (c : Dev nD) :
    (Pipeline.unscopedRest spec0 c (V m c) : sProp 𝕄) = Pipeline.unscopedRest spec0 c (fun b => Wx m c (Proc.devRef .tc b)) := by
  unfold Pipeline.unscopedRest
  exact bigSep_congr fun b hb => by
    dsimp only
    rw [Wx_other m c b (fun e => (Finset.mem_sdiff.mp hb).2 (Finset.mem_image.mpr ⟨4, Finset.mem_univ _, e.symm⟩))
      (fun e => (Finset.mem_sdiff.mp hb).2 (Finset.mem_image.mpr ⟨5, Finset.mem_univ _, e.symm⟩))]

/-- None of the later operations writes a window's array. -/
theorem tail_keeps : ∀ op ∈ (hostOps1 : List (HloOp τ sig (Elt F))), ∀ w : Fin cfg0.W, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- So every window's array is at its exit contents after them too. -/
theorem Wf_arr (c : Dev nD) (w : Fin cfg0.W) :
    (dats m 0 c).arrAt w cfg0.N = Wf m c (Proc.devRef .tc (Pipeline.arrRef spec0 w)) := by
  unfold Wf
  rw [StableHlo.after_of_forall_not_mem _ _ fun op hop => tail_keeps op hop w]
  exact Wx_arr m c w

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The region's exit, arrays and bypassing buffers, is all the unscoped buffers held at the exit contents. -/
theorem held_of_exit (c : Dev nD) :
    iprop((dats m 0 c).arrays ((dats m 0 c).arrAt · cfg0.N) ∗ Pipeline.unscopedRest spec0 c (V m c))
      ⊢ (StableHlo.held (c : Thread nD τ) (Pipeline.ucRefs τ sig) (Wx m c) : sProp 𝕄) := by
  rw [← Pipeline.unscopedBufs_held, Pipeline.unscopedBufs_split₀ cfgs 0 winFacts₀0.arr_unscoped c, rest_exit]
  iintro ⟨Ha, Hr⟩
  isplitl [Ha]
  · iapply (bufs_of_arrays m c (fun b => Wx m c (Proc.devRef .tc b)) _ (Wx_arr m c)); iexact Ha
  iexact Hr

/-- And back, after the later operations. -/
theorem exit_of_held (c : Dev nD) :
    (StableHlo.held (c : Thread nD τ) (Pipeline.ucRefs τ sig) (Wf m c) : sProp 𝕄)
      ⊢ iprop((dats m 0 c).arrays ((dats m 0 c).arrAt · cfg0.N) ∗ Pipeline.unscopedRest spec0 c (fun b => Wf m c (Proc.devRef .tc b))) := by
  rw [← Pipeline.unscopedBufs_held, Pipeline.unscopedBufs_split₀ cfgs 0 winFacts₀0.arr_unscoped c]
  iintro ⟨Ha, Hr⟩
  isplitl [Ha]
  · iapply (arrays_of_bufs m c (fun b => Wf m c (Proc.devRef .tc b)) _ (Wf_arr m c)); iexact Ha
  iexact Hr

set_option backward.isDefEq.respectTransparency.types false in
/-- The later operations, from the region's exit to their own end. -/
theorem htail (c : Dev nD) (Q' : PUnit → sProp 𝕄) :
    iprop((iprop((dats m 0 c).arrays ((dats m 0 c).arrAt · cfg0.N) ∗ Pipeline.unscopedRest spec0 c (fun b => Wf m c (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c : Thread nD τ) none) Set.univ
          (Pipeline.chain [StableHlo.seq hostOps1]) Q' := by
  rw [← List.append_nil [StableHlo.seq (hostOps1 : List (HloOp τ sig (Elt F)))]]
  have key : iprop(boundary (c : Thread nD τ) ∗ (dats m 0 c).arrays ((dats m 0 c).arrAt · cfg0.N) ∗ Pipeline.unscopedRest spec0 c (V m c))
      ⊢ iprop(boundary (c : Thread nD τ) ∗ (StableHlo.held (c : Thread nD τ) (Pipeline.ucRefs τ sig) (Wx m c) : sProp 𝕄)) := by
    iintro ⟨Hb, Hah⟩
    isplitl [Hb]; · iexact Hb
    iapply (held_of_exit m c); iexact Hah
  iintro ⟨Hk, Hall⟩
  ihave Hbh := key $$ Hall
  iapply (Pipeline.wp_seqs_then (pcfgs (F := F)) defs₀ Variants.none c (Pipeline.ucRefs τ sig) [] [hostOps1] tail_sub tail_fresh (Wx m c)) $$ Hbh
  iintro ⟨-, Hh⟩
  rw [Pipeline.chain_nil, wp_pure]
  imodintro
  iapply Hk
  iapply (exit_of_held m c)
  simp only [List.flatten_cons, List.flatten_nil, List.append_nil]
  iexact Hh

/-! ## The launch -/

/-- After the last point the invariant gives the class invariant back: what the scratch vectors hold is forgotten. -/
theorem Phi_out (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨⟨HM, HN⟩, Hg⟩
  isplitl [HM HN]
  · isplitl [HM]
    · iexists _; iexact HM
    · iexists _; iexact HN
  iexact Hg

set_option backward.isDefEq.respectTransparency.types false in
/-- From any memory with zero counters every weakly fair execution of @main terminates; the windows' arrays end at
    what the pipeline computes from the proof data and every other unscoped buffer at what the later operations
    compute from the region's exit contents. -/
theorem run_main : θ_run (defs (F := F)) (onTc (τ := τ) (main (F := F))) (s₀ m ρ) (fun r => ∀ c : Dev nD,
      (∀ w, r.2.mem ((cfg0.spec w).arr.view.loc (c : Thread nD τ)) = (dats m 0 c).arrAt w cfg0.N)
      ∧ ∀ b ∈ Pipeline.restRefs sig spec0, r.2.mem ((c : Thread nD τ).loc b) = Wf m c (Proc.devRef .tc b)) := by
  classical
  exact Pipeline.θ_run_region_pf_tail (pcfgs (F := F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (pcfgs (F := F)) (fun q => (cfgs q).toPCfg_adm)) cellOf_inj)
      (Pipeline.launchToks (Pipeline.pin (pcfgs (F := F)) (fun q => (cfgs q).toPCfg_adm)) cellOf_inj))
    (hu₀ := by
      iintro Hu; imodintro
      isplitl [Hu]
      · iapply (show (ownU _ : sProp 𝕄) ⊢ BI.own (emb₁ (initOf (Pipeline.cells (Pipeline.pin (pcfgs (F := F)) (fun q => (cfgs q).toPCfg_adm)) cellOf_inj)
          (Pipeline.launchToks (Pipeline.pin (pcfgs (F := F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => arrays_of_bufs m c (V m c) _ (fun w => A_eq m c w))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) (pcfgs (F := F) 0).pre spec0 c (V m c))
    (Z' := fun c => Pipeline.unscopedRestP (Ix := Unit) (Name := ℕ) (U := UR sig nD τ) (Lvl := ℕ) (pcfgs (F := F) 0).pre spec0 c (fun b => Wf m c (Proc.devRef .tc b)))
    (hX := fun c => by
      iintro ⟨HU, -, -, -, Hp, -⟩; imodintro
      isplitl [Hp]; · iexists _; iexact Hp
      iexact HU)
    (hin := fun c => by
      rw [show (dats m 0 c).Φ 0 = Pipeline.ΦA spec0 c from rfl]
      unfold Pipeline.ΦA
      iintro ⟨Hp, -, Hr⟩
      isplitl [Hr]; · iexact Hr
      iexact Hp)
    (hout := fun c => (Phi_out m c).trans (by
      rw [Pipeline.ownSems0_none]; unfold Pipeline.ΦA
      iintro ⟨Hr, Hp⟩
      isplitl [Hp]; · iexact Hp
      isplitr; · iempintro
      iexact Hr))
    (htail := fun c Q' => by
      rw [show (pcfgs (F := F) 0).pre = Pipeline.Prefetch.none from rfl, Pipeline.unscopedRestP_none, Pipeline.unscopedRestP_none]
      exact htail m c Q')
    (QY := fun c s => ∀ b ∈ Pipeline.restRefsP sig (pcfgs (F := F) 0).pre spec0, s.mem ((c : Thread nD τ).loc b) = Wf m c (Proc.devRef .tc b))
    (hY := fun c s' => by
      iintro ⟨-, HU, HSI⟩
      unfold Pipeline.unscopedRestP
      imodintro
      iapply (pointsTo_read_all (Pipeline.restRefsP sig (pcfgs (F := F) 0).pre spec0) (fun b => (c : Thread nD τ).loc b) (fun b => Wf m c (Proc.devRef .tc b)) s')
      isplitl [HU] <;> iassumption)
    (hQ := fun s h c => ⟨(h c).1, fun b hb => (h c).2.2 b (Finset.mem_sdiff.mpr ⟨hb, fun h' => by
      obtain ⟨k, -, -⟩ := Finset.mem_image.mp h'; exact k.elim0⟩)⟩)

/-! ## The frame, and the result -/

/-- The points are not touched by the reshapes before the region. -/
theorem V_pts (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes,
      Finset.mem_singleton]
    repeat' apply And.intro
    all_goals exact StableHlo.devRef_ne_of_ne (by decide)))

/-- Nor are the labels. -/
theorem V_lbl (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes,
      Finset.mem_singleton]
    repeat' apply And.intro
    all_goals exact StableHlo.devRef_ne_of_ne (by decide)))

/-- None of the later operations writes the labels. -/
theorem tail_keeps_lbl : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

/-- So the labels end as they were at launch. -/
theorem Wf_lbl (c : Dev nD) : Wf m c (Proc.devRef .tc main_arg1) = m ((c : Thread nD τ).loc main_arg1) := by
  unfold Wf
  rw [StableHlo.after_of_forall_not_mem _ _ fun op hop => tail_keeps_lbl op hop, Wx_other m c main_arg1 (by decide) (by decide)]
  exact V_lbl m c

/-- The program runs to the end, faults nowhere, and leaves the points and the labels unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 0).trans (((dats m 0 c).arrAt_in 0 rfl _).trans ((A_eq m c 0).trans (V_pts m c))),
     ((h c).2 main_arg1 (Pipeline.mem_restRefs_of main_arg1 rfl (by decide))).trans (Wf_lbl m c)⟩) (run_main m ρ)

/-- The later operations as one function of the two output arrays: flatten both, subtract, add the margin, clamp at
    zero, sum, divide by 8192. -/
def tailK (a4 a5 : FVec F S8192x1 .f32) : FVec F S_ .f32 :=
  Host.divf (Host.reduceAdd (maximumf (addf (subf (shapeCast S8192 a4 shapeCasts_S8192x1_S8192) (shapeCast S8192 a5 shapeCasts_S8192x1_S8192))
      (broadcastInDim S8192 ![] bcast_S_S8192 (constant S_ .f32 0x3E99999A#32)))
      (broadcastInDim S8192 ![] bcast_S_S8192 (constant S_ .f32 0x00000000#32)))
    (constant S_ .f32 0x00000000#32) reducesTo_S8192_S_d0 h_S_) (constant S_ .f32 0x46000000#32)

/-- The result buffer ends at that function of the two output arrays. -/
theorem Wf_res (c : Dev nD) :
    Wf m c (Proc.devRef .tc main_v11) = tailK ((dats m 0 c).arrAt 4 cfg0.N) ((dats m 0 c).arrAt 5 cfg0.N) := by
  unfold Wf
  after_results
  rw [Wx_out0, Wx_out1]
  rfl

end Cert.KernelIdeal.Hand

end
-- ==== Proof.Spec.lean ====
import Idealize.ShloMosaic.PureOps.Ideal
import Idealize.ShloMosaic.PureOps.Ideal.Laws
import Idealize.ShloMosaic.Lib.ValueIdx

/-!
  Hard-mining triplet distances on the extended reals.

  For 8192 points of 512 coordinates, the distance of points `i` and `j` is
  `sqrt (max eps (|x i|^2 + |x j|^2 - 2 * <x i, x j>))`.  Row `i`'s hardest positive is the largest distance
  to a point of the same label (the maximum, from -inf, of the distances masked to -inf off the label), its
  hardest negative the smallest distance to a point of another label (the minimum, from +inf, of the
  distances masked to +inf on the label).  Both are folds over all 8192 columns; the same value is reached
  by folding the columns in 16 consecutive groups of 512 and combining the group results one after the
  other, which is the second pair of definitions.
-/

noncomputable section

namespace Cert.Spec

open Idealize.ShloMosaic Idealize.ShloMosaic.ValueIdx

/-- The points: 8192 rows of 512 coordinates. -/
abbrev Pts : Type := (⟨2, ![8192, 512]⟩ : Shape).Idx → EReal
/-- One label per point. -/
abbrev Lbl : Type := (⟨1, ![8192]⟩ : Shape).Idx → BitVec 32

/-- The extended reals the two infinity words and the two finite constants denote. -/
abbrev negInf : EReal := Ideal.ofBits .f32 0xFF800000#32
abbrev posInf : EReal := Ideal.ofBits .f32 0x7F800000#32
abbrev eps : EReal := Ideal.ofBits .f32 0x2B8CBCCC#32
abbrev two : EReal := Ideal.ofBits .f32 0x40000000#32

/-- The squared norm of point `i`. -/
def sq (x : Pts) (i : Fin 8192) : EReal := ∑ d : Fin 512, x (ix2 i d) * x (ix2 i d)
/-- The inner product of points `i` and `j`. -/
def dot (x : Pts) (i j : Fin 8192) : EReal := ∑ d : Fin 512, x (ix2 i d) * x (ix2 j d)
/-- The clamped Euclidean distance of points `i` and `j`. -/
def dist (x : Pts) (i j : Fin 8192) : EReal := Ideal.sqrt (max eps (sq x i + sq x j - two * dot x i j))
/-- The distance where the labels agree, -inf elsewhere. -/
def pos (x : Pts) (t : Lbl) (i j : Fin 8192) : EReal := if t (ix1 i) = t (ix1 j) then dist x i j else negInf
/-- The distance where the labels differ, +inf elsewhere. -/
def neg (x : Pts) (t : Lbl) (i j : Fin 8192) : EReal := if t (ix1 i) = t (ix1 j) then posInf else dist x i j
/-- Row `i`'s hardest positive: the maximum over all columns. -/
def hardPos (x : Pts) (t : Lbl) (i : Fin 8192) : EReal := (Finset.univ : Finset (Fin 8192)).fold max negInf (pos x t i)
/-- Row `i`'s hardest negative: the minimum over all columns. -/
def hardNeg (x : Pts) (t : Lbl) (i : Fin 8192) : EReal := (Finset.univ : Finset (Fin 8192)).fold min posInf (neg x t i)

/-- Column `q` of the `J`-th group of 512 columns. -/
def col (J : Fin 16) (q : Fin 512) : Fin 8192 := ⟨512 * J.val + q.val, by have := J.isLt; have := q.isLt; omega⟩
/-- Row `r` of the `I`-th group of 1024 rows. -/
def row (I : Fin 8) (r : Fin 1024) : Fin 8192 := ⟨1024 * I.val + r.val, by have := I.isLt; have := r.isLt; omega⟩

/-- The maximum over the `J`-th group of columns. -/
def posBlk (x : Pts) (t : Lbl) (i : Fin 8192) (J : Fin 16) : EReal :=
  (Finset.univ : Finset (Fin 512)).fold max negInf (fun q => pos x t i (col J q))
/-- The minimum over the `J`-th group of columns. -/
def negBlk (x : Pts) (t : Lbl) (i : Fin 8192) (J : Fin 16) : EReal :=
  (Finset.univ : Finset (Fin 512)).fold min posInf (fun q => neg x t i (col J q))

/-- The running maximum after the groups `0 … J`, started from -inf. -/
def runPos (x : Pts) (t : Lbl) (i : Fin 8192) : (J : ℕ) → J < 16 → EReal
  | 0, h => max negInf (posBlk x t i ⟨0, h⟩)
  | J + 1, h => max (runPos x t i J (Nat.lt_of_succ_lt h)) (posBlk x t i ⟨J + 1, h⟩)
/-- The running minimum after the groups `0 … J`, started from +inf. -/
def runNeg (x : Pts) (t : Lbl) (i : Fin 8192) : (J : ℕ) → J < 16 → EReal
  | 0, h => min posInf (negBlk x t i ⟨0, h⟩)
  | J + 1, h => min (runNeg x t i J (Nat.lt_of_succ_lt h)) (negBlk x t i ⟨J + 1, h⟩)

end Cert.Spec

end
-- ==== Proof.KBlocks.lean ====
import proofs.«114037_j2585570312417_1_alg».proof.Proof.KData
import proofs.«114037_j2585570312417_1_alg».proof.Proof.Spec
import Idealize.ShloMosaic.Lib.ValueIdx
import Idealize.ShloMosaic.Lib.ValueLayout
import Idealize.ShloMosaic.Lib.Pipeline.Value
import Idealize.ShloMosaic.Lib.StableHlo.Run

/-! The blocks a point works on, read off the launch memory: point `t` reads rows `1024 * (t / 16) …` of the
    points for its row block and rows `512 * (t % 16) …` for its column block, and the same ranges of the labels
    (which the program reshapes to a column and to a row before the region). -/

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The row group of point `t`. -/
def rowGrp (t : Fin cfg0.N) : Fin 8 := ⟨t.val / 16, by have := t.isLt; have h : cfg0.N = 128 := N_0; omega⟩
/-- The column group of point `t`. -/
def colGrp (t : Fin cfg0.N) : Fin 16 := ⟨t.val % 16, Nat.mod_lt _ (by decide)⟩

/-- The points array is not touched by the reshapes before the region. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes,
      Finset.mem_singleton]
    repeat' apply And.intro
    all_goals exact StableHlo.devRef_ne_of_ne (by decide)))

/-- The block index maps over the grid: the row windows move with the row group, the column windows with the
    column group. -/
private theorem index0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
private theorem index1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
private theorem index2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
private theorem index3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)

theorem qblk_apply (c : Dev nD) (t : Fin cfg0.N) (r : Fin 1024) (d : Fin 512) :
    qblk m c t (ix2 r d) = (m ((c : Thread nD τ).loc main_arg0) : S8192x512.Idx → Elt F .f32) (ix2 (Cert.Spec.row (rowGrp t) r) d) := by
  rw [← V_arg0 m c]
  show V m c main_arg0 (((cfg0.win 0).blk t).view.emb (ix2 r d)) = V m c main_arg0 (ix2 (Cert.Spec.row (rowGrp t) r) d)
  refine congrArg _ ?_
  obtain ⟨e0, e1⟩ := index0 t
  funext a; apply Fin.ext
  match a with
  | ⟨0, _⟩ => show win0_0.index t (0 : Fin 2) * 1024 + 1 * r.val = 1024 * (t.val / 16) + r.val; omega
  | ⟨1, _⟩ => show win0_0.index t (1 : Fin 2) * 512 + 1 * d.val = d.val; omega

theorem kblk_apply (c : Dev nD) (t : Fin cfg0.N) (p : Fin 512) (d : Fin 512) :
    kblk m c t (ix2 p d) = (m ((c : Thread nD τ).loc main_arg0) : S8192x512.Idx → Elt F .f32) (ix2 (Cert.Spec.col (colGrp t) p) d) := by
  rw [← V_arg0 m c]
  show V m c main_arg0 (((cfg0.win 1).blk t).view.emb (ix2 p d)) = V m c main_arg0 (ix2 (Cert.Spec.col (colGrp t) p) d)
  refine congrArg _ ?_
  obtain ⟨e0, e1⟩ := index1 t
  funext a; apply Fin.ext
  match a with
  | ⟨0, _⟩ => show win0_1.index t (0 : Fin 2) * 512 + 1 * p.val = 512 * (t.val % 16) + p.val; omega
  | ⟨1, _⟩ => show win0_1.index t (1 : Fin 2) * 512 + 1 * d.val = d.val; omega

/-- The label column the region finds is the labels in row-major order at shape [8192, 1]. -/
private theorem V_v0 (c : Dev nD) :
    (V m c main_v0 : S8192x1.Idx → Elt F .i32)
      = shapeCast S8192x1 (m ((c : Thread nD τ).loc main_arg1) : S8192.Idx → Elt F .i32) shapeCasts_S8192_S8192x1 := by
  dsimp only [V, V0]
  simp only [List.flatten_cons, List.flatten_nil, List.append_nil]
  after_results
  rfl

/-- The label row the region finds is the labels in row-major order at shape [1, 8192]. -/
private theorem V_v1 (c : Dev nD) :
    (V m c main_v1 : S1x8192.Idx → Elt F .i32)
      = shapeCast S1x8192 (m ((c : Thread nD τ).loc main_arg1) : S8192.Idx → Elt F .i32) shapeCasts_S8192_S1x8192 := by
  dsimp only [V, V0]
  simp only [List.flatten_cons, List.flatten_nil, List.append_nil]
  after_results
  rfl

theorem qlbl_apply (c : Dev nD) (t : Fin cfg0.N) (r : Fin 1024) :
    qlbl m c t (ix2 r (0 : Fin 1)) = (m ((c : Thread nD τ).loc main_arg1) : S8192.Idx → Elt F .i32) (ix1 (Cert.Spec.row (rowGrp t) r)) := by
  have hb : qlbl m c t (ix2 r (0 : Fin 1))
      = (V m c main_v0 : S8192x1.Idx → Elt F .i32) (ix2 (Cert.Spec.row (rowGrp t) r) (0 : Fin 1)) := by
    show V m c main_v0 (((cfg0.win 2).blk t).view.emb (ix2 r (0 : Fin 1))) = V m c main_v0 (ix2 (Cert.Spec.row (rowGrp t) r) (0 : Fin 1))
    refine congrArg _ ?_
    obtain ⟨e0, e1⟩ := index2 t
    funext a; apply Fin.ext
    match a with
    | ⟨0, _⟩ => show win0_2.index t (0 : Fin 2) * 1024 + 1 * r.val = 1024 * (t.val / 16) + r.val; omega
    | ⟨1, _⟩ => show win0_2.index t (1 : Fin 2) * 1 + 1 * 0 = 0; omega
  refine hb.trans ?_
  rw [V_v0 m c]
  refine shapeCast_apply _ _ _ _ ?_
  show ((⟨1, ![8192]⟩ : Shape).rowMajor (ix1 (Cert.Spec.row (rowGrp t) r))).val
    = ((⟨2, ![8192, 1]⟩ : Shape).rowMajor (ix2 (Cert.Spec.row (rowGrp t) r) (0 : Fin 1))).val
  rw [Shape.rowMajor_val_one, Shape.rowMajor_val_two]
  show 1024 * (t.val / 16) + r.val = (1024 * (t.val / 16) + r.val) * 1 + 0
  omega

theorem klbl_apply (c : Dev nD) (t : Fin cfg0.N) (p : Fin 512) :
    klbl m c t (ix2 (0 : Fin 1) p) = (m ((c : Thread nD τ).loc main_arg1) : S8192.Idx → Elt F .i32) (ix1 (Cert.Spec.col (colGrp t) p)) := by
  have hb : klbl m c t (ix2 (0 : Fin 1) p)
      = (V m c main_v1 : S1x8192.Idx → Elt F .i32) (ix2 (0 : Fin 1) (Cert.Spec.col (colGrp t) p)) := by
    show V m c main_v1 (((cfg0.win 3).blk t).view.emb (ix2 (0 : Fin 1) p)) = V m c main_v1 (ix2 (0 : Fin 1) (Cert.Spec.col (colGrp t) p))
    refine congrArg _ ?_
    obtain ⟨e0, e1⟩ := index3 t
    funext a; apply Fin.ext
    match a with
    | ⟨0, _⟩ => show win0_3.index t (0 : Fin 2) * 1 + 1 * 0 = 0; omega
    | ⟨1, _⟩ => show win0_3.index t (1 : Fin 2) * 512 + 1 * p.val = 512 * (t.val % 16) + p.val; omega
  refine hb.trans ?_
  rw [V_v1 m c]
  refine shapeCast_apply _ _ _ _ ?_
  show ((⟨1, ![8192]⟩ : Shape).rowMajor (ix1 (Cert.Spec.col (colGrp t) p))).val
    = ((⟨2, ![1, 8192]⟩ : Shape).rowMajor (ix2 (0 : Fin 1) (Cert.Spec.col (colGrp t) p))).val
  rw [Shape.rowMajor_val_one, Shape.rowMajor_val_two]
  show 512 * (t.val % 16) + p.val = 0 * 8192 + (512 * (t.val % 16) + p.val)
  omega

end Cert.KernelIdeal.Hand

end
-- ==== Proof.KPayload.lean ====
import proofs.«114037_j2585570312417_1_alg».proof.Proof.Gen.KernelIdeal.Skeleton
import proofs.«114037_j2585570312417_1_alg».proof.Proof.Spec
import Idealize.ShloMosaic.PureOps.Ideal.Laws
import Idealize.ShloMosaic.Lib.ValueIdx
import Idealize.ShloMosaic.Lib.ValueLayout
import Idealize.ShloMosaic.Lib.Pipeline.Value

/-! The kernel body's stored values read at a row, on the extended reals: the group maximum and minimum of the
    masked distances as folds over the 512 columns of the group, the combination with the carried value, and
    the two reset values. -/

noncomputable section

namespace Cert.KernelIdeal.Hand

open Idealize.ShloMosaic Idealize.ShloMosaic.ValueIdx
open Cert.KernelIdeal Cert.KernelIdeal.Gen

/-- The masked distance of row `r` of the row block to row `p` of the column block, on the label match. -/
def dblk (q : Vec Ideal S1024x512 .f32) (k : Vec Ideal S512x512 .f32) (r : Fin 1024) (p : Fin 512) : EReal :=
  Ideal.sqrt (max Cert.Spec.eps ((∑ d : Fin 512, q (ix2 r d) * q (ix2 r d)) + (∑ d : Fin 512, k (ix2 p d) * k (ix2 p d))
    - Cert.Spec.two * ∑ d : Fin 512, q (ix2 r d) * k (ix2 p d)))

/-! ## Layout operations on a column -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions along the rows -/

/-- The source index over the row `i` with coordinate `d` on the dropped column axis is `(i, d)`. -/
private theorem lift_row {a b : ℕ} (h : (⟨2, ![a, b]⟩ : Shape).Reduces [1] ⟨1, ![a]⟩) (i : Fin a) (d : Fin b) :
    h.lift (ix1 i) d = ix2 i d :=
  funext fun c => Fin.ext (by match c with | ⟨0, _⟩ => rfl | ⟨1, _⟩ => rfl)

/-- A row sum of a matrix at row `i` is the sum over the columns. -/
private theorem rowSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction (F := Ideal) .add [1] ⟨1, ![a]⟩ v 0x00000000#32 h hφ hacc (ix1 i) = ∑ d : Fin b, v (ix2 i d) :=
  (Ideal.multiReduction_add_single v 0x00000000#32 h hφ hacc (ix1 i)).trans
    (Finset.sum_congr rfl fun d _ => congrArg v (lift_row h i d))

/-- A row maximum of a matrix at row `i` is the fold of `max` over the columns, from the accumulator's value. -/
private theorem rowMax_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (i : Fin a) :
    multiReduction (F := Ideal) .maximumf [1] ⟨1, ![a]⟩ v 0xFF800000#32 h hφ hacc (ix1 i)
      = (Finset.univ : Finset (Fin b)).fold max (Ideal.ofBits .f32 0xFF800000#32) (fun d => v (ix2 i d)) :=
  (Ideal.multiReduction_maximumf_single v 0xFF800000#32 h hφ hacc (ix1 i)).trans
    (Finset.fold_congr fun d _ => congrArg v (lift_row h i d))

/-- A `<minimumf>` reduction over one axis, on the extended reals: the fold of `min` from the accumulator's value over
    that axis's coordinates. -/
private theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A row minimum of a matrix at row `i` is the fold of `min` over the columns, from the accumulator's value. -/
private theorem rowMin_apply {a b : ℕ} (v : FVec Ideal ⟨2, ![a, b]⟩ .f32)
    (h : (⟨2, ![a, b]⟩ : Shape).Reduces [1] ⟨1, ![a]⟩) (hφ : FKind.Formats .f32)
    (hacc : (0x7F800000#32 : BitVec 32) = 0x7F800000#32) (i : Fin a) :
    multiReduction (F := Ideal) .minimumf [1] ⟨1, ![a]⟩ v 0x7F800000#32 h hφ hacc (ix1 i)
      = (Finset.univ : Finset (Fin b)).fold min (Ideal.ofBits .f32 0x7F800000#32) (fun d => v (ix2 i d)) :=
  (multiReduction_minimumf_single v 0x7F800000#32 h hφ hacc (ix1 i)).trans
    (Finset.fold_congr fun d _ => congrArg v (lift_row h i d))

/-! ## The product of the row block with the column block, contracted over the coordinates of both -/

private theorem lhs_dot_0 (i : S1024x512.Idx) (c : dot_S1024x512_S512x512_S1024x512_1_1_0_0_n_n.contr.Idx) :
    (dot_S1024x512_S512x512_S1024x512_1_1_0_0_n_n.lhsIdx i c 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
private theorem lhs_dot_1 (i : S1024x512.Idx) (c : dot_S1024x512_S512x512_S1024x512_1_1_0_0_n_n.contr.Idx) :
    (dot_S1024x512_S512x512_S1024x512_1_1_0_0_n_n.lhsIdx i c 1).val = (c ⟨0, by decide⟩).val :=
  dot_S1024x512_S512x512_S1024x512_1_1_0_0_n_n.lhsIdx_val_of_single rfl i c
private theorem rhs_dot_0 (i : S1024x512.Idx) (c : dot_S1024x512_S512x512_S1024x512_1_1_0_0_n_n.contr.Idx) :
    (dot_S1024x512_S512x512_S1024x512_1_1_0_0_n_n.rhsIdx i c 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
private theorem rhs_dot_1 (i : S1024x512.Idx) (c : dot_S1024x512_S512x512_S1024x512_1_1_0_0_n_n.contr.Idx) :
    (dot_S1024x512_S512x512_S1024x512_1_1_0_0_n_n.rhsIdx i c 1).val = (c ⟨0, by decide⟩).val :=
  dot_S1024x512_S512x512_S1024x512_1_1_0_0_n_n.rhsIdx_val_of_single rfl i c

/-- The product into the zero accumulator at `(r, p)` is the inner product of row `r` of the row block with row `p`
    of the column block. -/
private theorem dot_apply (q : FVec Ideal S1024x512 .f32) (k : FVec Ideal S512x512 .f32) (r : Fin 1024) (p : Fin 512) :
    matmul (F := Ideal) dot_S1024x512_S512x512_S1024x512_1_1_0_0_n_n none q k (constant (F := Ideal) S1024x512 .f32 0x00000000#32) (ix2 r p)
      = ∑ d : Fin 512, q (ix2 r d) * k (ix2 p d) := by
  simp only [matmul]
  rw [Ideal.matmul_constant_zero_apply, ← Equiv.sum_comp (ValueIdx.contrEquiv1 dot_S1024x512_S512x512_S1024x512_1_1_0_0_n_n 512 rfl rfl).symm]
  refine Finset.sum_congr rfl fun d _ => ?_
  have hd := ValueIdx.contrEquiv1_symm_val dot_S1024x512_S512x512_S1024x512_1_1_0_0_n_n 512 rfl rfl d
  have el : dot_S1024x512_S512x512_S1024x512_1_1_0_0_n_n.lhsIdx (ix2 r p) ((ValueIdx.contrEquiv1 dot_S1024x512_S512x512_S1024x512_1_1_0_0_n_n 512 rfl rfl).symm d) = ix2 r d := funext fun a => Fin.ext (by
    match a with
    | ⟨0, _⟩ => exact lhs_dot_0 _ _
    | ⟨1, _⟩ => exact (lhs_dot_1 _ _).trans hd)
  have er : dot_S1024x512_S512x512_S1024x512_1_1_0_0_n_n.rhsIdx (ix2 r p) ((ValueIdx.contrEquiv1 dot_S1024x512_S512x512_S1024x512_1_1_0_0_n_n 512 rfl rfl).symm d) = ix2 p d := funext fun a => Fin.ext (by
    match a with
    | ⟨0, _⟩ => exact rhs_dot_0 _ _
    | ⟨1, _⟩ => exact (rhs_dot_1 _ _).trans hd)
  rw [el, er]

/-! ## The body's values at an index -/

/-- The distance matrix at `(r, p)`. -/
private theorem pay5_apply (q : Vec Ideal S1024x512 .f32) (k : Vec Ideal S512x512 .f32) (r : Fin 1024) (p : Fin 512) :
    k0_pay5 (F := Ideal) q k (ix2 r p) = dblk q k r p := by
  unfold k0_pay5 dblk
  show Ideal.sqrt (max (Ideal.ofBits .f32 0x2B8CBCCC#32)
      (broadcastTo S1024x512 (shapeCast S1024x1 (multiReduction (F := Ideal) .add [1] S1024 (mulf (F := Ideal) (φ := .f32) q q) 0x00000000#32 reduces_S1024x512_S1024 (.inl rfl) rfl) shapeCasts_S1024_S1024x1) broadcasts_S1024x1_S1024x512 (ix2 r p)
        + broadcastTo S1024x512 (transpose S1x512 [1, 0] (shapeCast S512x1 (multiReduction (F := Ideal) .add [1] S512 (mulf (F := Ideal) (φ := .f32) k k) 0x00000000#32 reduces_S512x512_S512 (.inl rfl) rfl) shapeCasts_S512_S512x1) transposes_S512x1_p1_0_S1x512) broadcasts_S1x512_S1024x512 (ix2 r p)
        - Ideal.ofBits .f32 0x40000000#32 * matmul (F := Ideal) (φ₁ := .f32) (φ₂ := .f32) dot_S1024x512_S512x512_S1024x512_1_1_0_0_n_n none q k (constant (F := Ideal) S1024x512 .f32 0x00000000#32) (ix2 r p))) = _
  rw [broadcastTo_a1_ab_apply, shapeCast_a_a1_apply, rowSum_apply, broadcastTo_1b_ab_apply, transpose_ix2_apply,
    shapeCast_a_a1_apply, rowSum_apply, dot_apply]
  rfl

/-- The label match at `(r, p)`. -/
private theorem pay6_apply (a : Vec Ideal S1024x1 .i32) (b : Vec Ideal S1x512 .i32) (r : Fin 1024) (p : Fin 512) :
    k0_pay6 (F := Ideal) a b (ix2 r p) = IntOp.cmpi .eq (a (ix2 r (0 : Fin 1))) (b (ix2 (0 : Fin 1) p)) := by
  unfold k0_pay6
  show IntOp.cmpi .eq (broadcastTo S1024x512 (shapeCast S1024x1 a shapeCasts_S1024x1_S1024x1) broadcasts_S1024x1_S1024x512 (ix2 r p))
      (broadcastTo S1024x512 (shapeCast S1x512 b shapeCasts_S1x512_S1x512) broadcasts_S1x512_S1024x512 (ix2 r p)) = _
  rw [broadcastTo_a1_ab_apply, broadcastTo_1b_ab_apply, shapeCast_self, shapeCast_self]

/-- A select on the equality of two words is the `if` on their equality. -/
private theorem select_cmpi_eq {α : Type} {w : ℕ} (x y : BitVec w) (A B : α) :
    Scalar.select (IntOp.cmpi .eq x y) A B = if x = y then A else B := by
  show (if BitVec.ofBool (x == y) = 1#1 then A else B) = _
  by_cases h : x = y
  · rw [if_pos h, beq_iff_eq.mpr h]; exact if_pos (by decide)
  · rw [if_neg h, beq_eq_false_iff_ne.mpr h]; exact if_neg (by decide)

/-- The group maximum at row `r`. -/
theorem pay7_apply (q : Vec Ideal S1024x512 .f32) (k : Vec Ideal S512x512 .f32) (a : Vec Ideal S1024x1 .i32) (b : Vec Ideal S1x512 .i32) (r : Fin 1024) :
    k0_pay7 (F := Ideal) q k a b (ix2 r (0 : Fin 1))
      = (Finset.univ : Finset (Fin 512)).fold max Cert.Spec.negInf
          (fun p => if a (ix2 r (0 : Fin 1)) = b (ix2 (0 : Fin 1) p) then dblk q k r p else Cert.Spec.negInf) := by
  unfold k0_pay7
  show shapeCast S1024x1 (multiReduction (F := Ideal) .maximumf [1] S1024
      (select (k0_pay6 (F := Ideal) a b) (k0_pay5 (F := Ideal) q k) (broadcast S1024x512 (Ideal.ofBits .f32 0xFF800000#32)))
      0xFF800000#32 reduces_S1024x512_S1024 (.inl rfl) rfl) shapeCasts_S1024_S1024x1 (ix2 r (0 : Fin 1)) = _
  rw [shapeCast_a_a1_apply, rowMax_apply]
  refine Finset.fold_congr fun p _ => ?_
  rw [select_apply, pay6_apply, pay5_apply, broadcast_apply, select_cmpi_eq]

/-- The group minimum at row `r`. -/
theorem pay8_apply (q : Vec Ideal S1024x512 .f32) (k : Vec Ideal S512x512 .f32) (a : Vec Ideal S1024x1 .i32) (b : Vec Ideal S1x512 .i32) (r : Fin 1024) :
    k0_pay8 (F := Ideal) q k a b (ix2 r (0 : Fin 1))
      = (Finset.univ : Finset (Fin 512)).fold min Cert.Spec.posInf
          (fun p => if a (ix2 r (0 : Fin 1)) = b (ix2 (0 : Fin 1) p) then Cert.Spec.posInf else dblk q k r p) := by
  unfold k0_pay8
  show shapeCast S1024x1 (multiReduction (F := Ideal) .minimumf [1] S1024
      (select (k0_pay6 (F := Ideal) a b) (broadcast S1024x512 (Ideal.ofBits .f32 0x7F800000#32)) (k0_pay5 (F := Ideal) q k))
      0x7F800000#32 reduces_S1024x512_S1024 (.inl rfl) rfl) shapeCasts_S1024_S1024x1 (ix2 r (0 : Fin 1)) = _
  rw [shapeCast_a_a1_apply, rowMin_apply]
  refine Finset.fold_congr fun p _ => ?_
  rw [select_apply, pay6_apply, pay5_apply, broadcast_apply, select_cmpi_eq]

/-- The carried maximum combined with the group's. -/
theorem pay1_apply (g : FVec Ideal S1024x1 .f32) (s : Vec Ideal S1024x1 .f32) (r : Fin 1024) :
    k0_pay1 (F := Ideal) g s (ix2 r (0 : Fin 1)) = max (s (ix2 r (0 : Fin 1))) (g (ix2 r (0 : Fin 1))) := by
  unfold k0_pay1
  show shapeCast S1024x1 (maximumf (F := Ideal) (φ := .f32) s g) shapeCasts_S1024x1_S1024x1 (ix2 r (0 : Fin 1)) = _
  rw [shapeCast_self]
  rfl

/-- The carried minimum combined with the group's. -/
theorem pay2_apply (g : FVec Ideal S1024x1 .f32) (s : Vec Ideal S1024x1 .f32) (r : Fin 1024) :
    k0_pay2 (F := Ideal) g s (ix2 r (0 : Fin 1)) = min (s (ix2 r (0 : Fin 1))) (g (ix2 r (0 : Fin 1))) := by
  unfold k0_pay2
  show shapeCast S1024x1 (minimumf (F := Ideal) (φ := .f32) s g) shapeCasts_S1024x1_S1024x1 (ix2 r (0 : Fin 1)) = _
  rw [shapeCast_self]
  rfl

/-- The reset value of the running maximum. -/
theorem pay3_apply (r : Fin 1024) : k0_pay3 (F := Ideal) (ix2 r (0 : Fin 1)) = Cert.Spec.negInf := by
  unfold k0_pay3
  show shapeCast S1024x1 (broadcast S1024x1 (Ideal.ofBits .f32 0xFF800000#32)) shapeCasts_S1024x1_S1024x1 (ix2 r (0 : Fin 1)) = _
  rw [shapeCast_self]
  rfl

/-- The reset value of the running minimum. -/
theorem pay4_apply (r : Fin 1024) : k0_pay4 (F := Ideal) (ix2 r (0 : Fin 1)) = Cert.Spec.posInf := by
  unfold k0_pay4
  show shapeCast S1024x1 (broadcast S1024x1 (Ideal.ofBits .f32 0x7F800000#32)) shapeCasts_S1024x1_S1024x1 (ix2 r (0 : Fin 1)) = _
  rw [shapeCast_self]
  rfl

end Cert.KernelIdeal.Hand

end
-- ==== Proof.SpecFold.lean ====
import proofs.«114037_j2585570312417_1_alg».proof.Proof.Spec
import Mathlib.Data.Finset.Fold
import Mathlib.Data.Fintype.Basic

/-! Folding the 8192 columns in 16 consecutive groups of 512 reaches the fold over all of them. -/

noncomputable section

namespace Cert.Spec

open Idealize.ShloMosaic Idealize.ShloMosaic.ValueIdx

section Generic

variable {α β : Type*} (op : β → β → β) [hc : Std.Commutative op] [ha : Std.Associative op]
  [hi : Std.IdempotentOp op]

/-- For an idempotent operation the start value is absorbed by the fold it starts. -/
private theorem op_fold_self (b : β) (f : α → β) (s : Finset α) :
    op b (s.fold op b f) = s.fold op b f := by
  classical
  induction s using Finset.induction_on with
  | empty => simp only [Finset.fold_empty]; exact hi.idempotent b
  | insert a s _ ih =>
    rw [Finset.fold_insert_idem, ← ha.assoc, hc.comm b (f a), ha.assoc, ih]

/-- For an idempotent operation the fold over a union combines the folds over the two parts,
whether or not they overlap. -/
private theorem fold_union_idem [DecidableEq α] (b : β) (f : α → β) (s₁ s₂ : Finset α) :
    (s₁ ∪ s₂).fold op b f = op (s₁.fold op b f) (s₂.fold op b f) := by
  induction s₁ using Finset.induction_on with
  | empty =>
    rw [Finset.empty_union, Finset.fold_empty]
    exact (op_fold_self op b f s₂).symm
  | insert a s _ ih =>
    rw [Finset.insert_union, Finset.fold_insert_idem, Finset.fold_insert_idem, ih, ha.assoc]

end Generic

/-- The `J`-th group of columns is the set of columns `512 J ≤ j < 512 (J + 1)`. -/
private theorem image_col (J : Fin 16) :
    (Finset.univ : Finset (Fin 512)).image (col J)
      = Finset.univ.filter (fun j : Fin 8192 => 512 * J.val ≤ j.val ∧ j.val < 512 * (J.val + 1)) := by
  ext j
  simp only [Finset.mem_image, Finset.mem_univ, true_and, Finset.mem_filter]
  constructor
  · rintro ⟨q, rfl⟩
    have := q.isLt
    simp only [col]
    omega
  · rintro ⟨h1, h2⟩
    refine ⟨⟨j.val - 512 * J.val, by omega⟩, ?_⟩
    apply Fin.ext
    simp only [col]
    omega

/-- The columns below `512 (J + 2)` are those below `512 (J + 1)` together with the group `J + 1`. -/
private theorem filter_succ (J : ℕ) :
    Finset.univ.filter (fun j : Fin 8192 => j.val < 512 * (J + 1 + 1))
      = Finset.univ.filter (fun j : Fin 8192 => j.val < 512 * (J + 1))
        ∪ Finset.univ.filter (fun j : Fin 8192 => 512 * (J + 1) ≤ j.val ∧ j.val < 512 * (J + 1 + 1)) := by
  ext j
  simp only [Finset.mem_union, Finset.mem_filter, Finset.mem_univ, true_and]
  omega

section Run

variable {β : Type*} (op : β → β → β) [hc : Std.Commutative op] [ha : Std.Associative op]
  [hi : Std.IdempotentOp op]

/-- The fold over the `J`-th group, read as a fold over a set of columns. -/
private theorem blk_eq (b : β) (f : Fin 8192 → β) (J : ℕ) (h : J < 16) :
    (Finset.univ : Finset (Fin 512)).fold op b (fun q => f (col ⟨J, h⟩ q))
      = (Finset.univ.filter
          (fun j : Fin 8192 => 512 * J ≤ j.val ∧ j.val < 512 * (J + 1))).fold op b f := by
  have hs : (Finset.univ : Finset (Fin 512)).image (col ⟨J, h⟩)
      = Finset.univ.filter (fun j : Fin 8192 => 512 * J ≤ j.val ∧ j.val < 512 * (J + 1)) :=
    image_col ⟨J, h⟩
  rw [← hs, Finset.fold_image_idem]
  rfl

/-- The columns of the group `0` are the columns below `512`. -/
private theorem filter_zero :
    Finset.univ.filter (fun j : Fin 8192 => 512 * 0 ≤ j.val ∧ j.val < 512 * (0 + 1))
      = Finset.univ.filter (fun j : Fin 8192 => j.val < 512 * (0 + 1)) :=
  Finset.filter_congr (fun j _ => by omega)

/-- Every column lies below `512 * 16`. -/
private theorem filter_all :
    Finset.univ.filter (fun j : Fin 8192 => j.val < 512 * (15 + 1)) = Finset.univ :=
  Finset.filter_true_of_mem (fun j _ => by have := j.isLt; omega)

/-- Combining the groups `0 … J` one after the other folds the columns below `512 (J + 1)`. -/
private theorem run_eq_fold (b : β) (f : Fin 8192 → β) (run : (J : ℕ) → J < 16 → β)
    (h0 : ∀ h, run 0 h
      = op b ((Finset.univ : Finset (Fin 512)).fold op b (fun q => f (col ⟨0, h⟩ q))))
    (hS : ∀ J (h : J + 1 < 16), run (J + 1) h
      = op (run J (Nat.lt_of_succ_lt h))
          ((Finset.univ : Finset (Fin 512)).fold op b (fun q => f (col ⟨J + 1, h⟩ q)))) :
    ∀ J (h : J < 16), run J h
      = (Finset.univ.filter (fun j : Fin 8192 => j.val < 512 * (J + 1))).fold op b f := by
  intro J
  induction J with
  | zero =>
    intro h
    rw [h0, blk_eq op b f 0 h, op_fold_self op, filter_zero]
  | succ J ih =>
    intro h
    rw [hS, ih, blk_eq op b f (J + 1) h, filter_succ, fold_union_idem op]

/-- After all 16 groups every column has been folded. -/
private theorem run_last (b : β) (f : Fin 8192 → β) (run : (J : ℕ) → J < 16 → β)
    (h0 : ∀ h, run 0 h
      = op b ((Finset.univ : Finset (Fin 512)).fold op b (fun q => f (col ⟨0, h⟩ q))))
    (hS : ∀ J (h : J + 1 < 16), run (J + 1) h
      = op (run J (Nat.lt_of_succ_lt h))
          ((Finset.univ : Finset (Fin 512)).fold op b (fun q => f (col ⟨J + 1, h⟩ q)))) :
    run 15 (by decide) = (Finset.univ : Finset (Fin 8192)).fold op b f := by
  rw [← filter_all]
  exact run_eq_fold op b f run h0 hS 15 (by decide)

end Run

/-- The running maximum after all 16 groups is the maximum over all columns. -/
theorem runPos_last (x : Pts) (t : Lbl) (i : Fin 8192) : runPos x t i 15 (by decide) = hardPos x t i := by
  unfold hardPos
  exact run_last max negInf (pos x t i) (runPos x t i)
    (fun h => by rw [runPos, posBlk]) (fun J h => by rw [runPos, posBlk])

/-- The running minimum after all 16 groups is the minimum over all columns. -/
theorem runNeg_last (x : Pts) (t : Lbl) (i : Fin 8192) : runNeg x t i 15 (by decide) = hardNeg x t i := by
  unfold hardNeg
  exact run_last min posInf (neg x t i) (runNeg x t i)
    (fun h => by rw [runNeg, negBlk]) (fun J h => by rw [runNeg, negBlk])

end Cert.Spec

end
-- ==== Proof.KValue.lean ====
import proofs.«114037_j2585570312417_1_alg».proof.Proof.KData
import proofs.«114037_j2585570312417_1_alg».proof.Proof.KBlocks
import proofs.«114037_j2585570312417_1_alg».proof.Proof.KPayload
import proofs.«114037_j2585570312417_1_alg».proof.Proof.SpecFold
import Idealize.ShloMosaic.Lib.Pipeline.Value

/-! On the extended reals the two output arrays end at the hardest positive and the hardest negative of every
    row: the scratch vectors after point `t` hold, per row of the row group, the running maximum and minimum
    over the column groups `0 … t % 16` (induction over the points), the point of column group 15 writes them
    back, and those 8 write-backs cover the arrays. -/

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The points and the labels of core `c`'s launch memory. -/
abbrev pts (c : Dev nD) : Cert.Spec.Pts := m ((c : Thread nD τ).loc main_arg0)
abbrev lbl (c : Dev nD) : Cert.Spec.Lbl := m ((c : Thread nD τ).loc main_arg1)

/-! ## The running maximum and minimum, one column group at a time -/

/-- The running maximum at the first column group. -/
private theorem runPos_first (x : Cert.Spec.Pts) (l : Cert.Spec.Lbl) (i : Fin 8192) (J : ℕ) (h : J < 16) (e : J = 0) :
    Cert.Spec.runPos x l i J h = max Cert.Spec.negInf (Cert.Spec.posBlk x l i ⟨J, h⟩) := by
  subst e; rfl

/-- The running maximum at a later column group: the one before combined with the group's. -/
private theorem runPos_next (x : Cert.Spec.Pts) (l : Cert.Spec.Lbl) (i : Fin 8192) (J : ℕ) (h : J < 16) (J' : ℕ) (h' : J' < 16)
    (e : J = J' + 1) :
    Cert.Spec.runPos x l i J h = max (Cert.Spec.runPos x l i J' h') (Cert.Spec.posBlk x l i ⟨J, h⟩) := by
  subst e; rfl

/-- The running minimum at the first column group. -/
private theorem runNeg_first (x : Cert.Spec.Pts) (l : Cert.Spec.Lbl) (i : Fin 8192) (J : ℕ) (h : J < 16) (e : J = 0) :
    Cert.Spec.runNeg x l i J h = min Cert.Spec.posInf (Cert.Spec.negBlk x l i ⟨J, h⟩) := by
  subst e; rfl

/-- The running minimum at a later column group. -/
private theorem runNeg_next (x : Cert.Spec.Pts) (l : Cert.Spec.Lbl) (i : Fin 8192) (J : ℕ) (h : J < 16) (J' : ℕ) (h' : J' < 16)
    (e : J = J' + 1) :
    Cert.Spec.runNeg x l i J h = min (Cert.Spec.runNeg x l i J' h') (Cert.Spec.negBlk x l i ⟨J, h⟩) := by
  subst e; rfl

/-! ## A point's group maximum and minimum are the specification's -/

/-- The masked distance of the blocks is the distance of the points the blocks' rows are. -/
private theorem dblk_eq (x : Cert.Spec.Pts) (I : Fin 8) (J : Fin 16)
    (q : Vec Ideal S1024x512 .f32) (k : Vec Ideal S512x512 .f32)
    (hq : ∀ (r : Fin 1024) (d : Fin 512), q (ix2 r d) = x (ix2 (Cert.Spec.row I r) d))
    (hk : ∀ (p : Fin 512) (d : Fin 512), k (ix2 p d) = x (ix2 (Cert.Spec.col J p) d))
    (r : Fin 1024) (p : Fin 512) :
    dblk q k r p = Cert.Spec.dist x (Cert.Spec.row I r) (Cert.Spec.col J p) := by
  unfold dblk Cert.Spec.dist Cert.Spec.sq Cert.Spec.dot
  simp only [hq, hk]

/-- The group maximum of blocks that are rows `I` and columns `J` of the points and labels. -/
private theorem pay7_spec (x : Cert.Spec.Pts) (l : Cert.Spec.Lbl) (I : Fin 8) (J : Fin 16)
    (q : Vec Ideal S1024x512 .f32) (k : Vec Ideal S512x512 .f32) (a : Vec Ideal S1024x1 .i32) (b : Vec Ideal S1x512 .i32)
    (hq : ∀ (r : Fin 1024) (d : Fin 512), q (ix2 r d) = x (ix2 (Cert.Spec.row I r) d))
    (hk : ∀ (p : Fin 512) (d : Fin 512), k (ix2 p d) = x (ix2 (Cert.Spec.col J p) d))
    (ha : ∀ r : Fin 1024, a (ix2 r (0 : Fin 1)) = l (ix1 (Cert.Spec.row I r)))
    (hb : ∀ p : Fin 512, b (ix2 (0 : Fin 1) p) = l (ix1 (Cert.Spec.col J p)))
    (r : Fin 1024) :
    k0_pay7 (F := Ideal) q k a b (ix2 r (0 : Fin 1)) = Cert.Spec.posBlk x l (Cert.Spec.row I r) J := by
  refine (pay7_apply q k a b r).trans ?_
  unfold Cert.Spec.posBlk
  refine congrArg (fun f => (Finset.univ : Finset (Fin 512)).fold max Cert.Spec.negInf f) (funext fun p => ?_)
  unfold Cert.Spec.pos
  rw [ha r, hb p, dblk_eq x I J q k hq hk r p]

/-- The group minimum of the same blocks. -/
private theorem pay8_spec (x : Cert.Spec.Pts) (l : Cert.Spec.Lbl) (I : Fin 8) (J : Fin 16)
    (q : Vec Ideal S1024x512 .f32) (k : Vec Ideal S512x512 .f32) (a : Vec Ideal S1024x1 .i32) (b : Vec Ideal S1x512 .i32)
    (hq : ∀ (r : Fin 1024) (d : Fin 512), q (ix2 r d) = x (ix2 (Cert.Spec.row I r) d))
    (hk : ∀ (p : Fin 512) (d : Fin 512), k (ix2 p d) = x (ix2 (Cert.Spec.col J p) d))
    (ha : ∀ r : Fin 1024, a (ix2 r (0 : Fin 1)) = l (ix1 (Cert.Spec.row I r)))
    (hb : ∀ p : Fin 512, b (ix2 (0 : Fin 1) p) = l (ix1 (Cert.Spec.col J p)))
    (r : Fin 1024) :
    k0_pay8 (F := Ideal) q k a b (ix2 r (0 : Fin 1)) = Cert.Spec.negBlk x l (Cert.Spec.row I r) J := by
  refine (pay8_apply q k a b r).trans ?_
  unfold Cert.Spec.negBlk
  refine congrArg (fun f => (Finset.univ : Finset (Fin 512)).fold min Cert.Spec.posInf f) (funext fun p => ?_)
  unfold Cert.Spec.neg
  rw [ha r, hb p, dblk_eq x I J q k hq hk r p]

/-- Point `t`'s group maximum at row `r`: the maximum over column group `t % 16` for row `r` of row group `t / 16`. -/
private theorem bmax_apply (c : Dev nD) (t : Fin cfg0.N) (r : Fin 1024) :
    bmax m c t (ix2 r (0 : Fin 1))
      = Cert.Spec.posBlk (pts m c) (lbl m c) (Cert.Spec.row (rowGrp t) r) (colGrp t) := by
  unfold bmax
  exact pay7_spec (pts m c) (lbl m c) (rowGrp t) (colGrp t) (qblk m c t) (kblk m c t) (qlbl m c t) (klbl m c t)
    (qblk_apply m c t) (kblk_apply m c t) (qlbl_apply m c t) (klbl_apply m c t) r

/-- Point `t`'s group minimum at row `r`. -/
private theorem bmin_apply (c : Dev nD) (t : Fin cfg0.N) (r : Fin 1024) :
    bmin m c t (ix2 r (0 : Fin 1))
      = Cert.Spec.negBlk (pts m c) (lbl m c) (Cert.Spec.row (rowGrp t) r) (colGrp t) := by
  unfold bmin
  exact pay8_spec (pts m c) (lbl m c) (rowGrp t) (colGrp t) (qblk m c t) (kblk m c t) (qlbl m c t) (klbl m c t)
    (qblk_apply m c t) (kblk_apply m c t) (qlbl_apply m c t) (klbl_apply m c t) r

/-! ## The scratch vectors after a point -/

/-- The first scratch vector after position `n`, by induction on the position: at column group 0 it is reset
    and combined, at the others combined with what the position before left, in the same row group. -/
private theorem accAt_pos_aux (c : Dev nD) (r : Fin 1024) (n : ℕ) : ∀ hn : n < cfg0.N,
    (accAt m c n hn).1 (ix2 r (0 : Fin 1))
      = Cert.Spec.runPos (pts m c) (lbl m c) (Cert.Spec.row (rowGrp ⟨n, hn⟩) r) (n % 16) (Nat.mod_lt _ (by decide)) := by
  induction n using Nat.strong_induction_on with
  | _ n ih =>
    intro hn
    by_cases h0 : n % 16 = 0
    · have e : accAt m c n hn = (k0_pay1 (bmax m c ⟨n, hn⟩) (k0_pay3 (F := Ideal)), k0_pay2 (bmin m c ⟨n, hn⟩) (k0_pay4 (F := Ideal))) :=
        accAt_reset m c ⟨n, hn⟩ h0
      rw [e]
      refine (pay1_apply (bmax m c ⟨n, hn⟩) (k0_pay3 (F := Ideal)) r).trans ?_
      rw [pay3_apply r, bmax_apply m c ⟨n, hn⟩ r]
      exact (runPos_first (pts m c) (lbl m c) (Cert.Spec.row (rowGrp ⟨n, hn⟩) r) (n % 16) (Nat.mod_lt _ (by decide)) h0).symm
    · have hn' : n - 1 < cfg0.N := Nat.lt_of_le_of_lt (Nat.sub_le _ _) hn
      have e : accAt m c n hn = (k0_pay1 (bmax m c ⟨n, hn⟩) (accAt m c (n - 1) hn').1, k0_pay2 (bmin m c ⟨n, hn⟩) (accAt m c (n - 1) hn').2) :=
        accAt_step m c ⟨n, hn⟩ h0
      rw [e]
      refine (pay1_apply (bmax m c ⟨n, hn⟩) (accAt m c (n - 1) hn').1 r).trans ?_
      have hg : rowGrp ⟨n - 1, hn'⟩ = rowGrp ⟨n, hn⟩ := Fin.ext (by show (n - 1) / 16 = n / 16; omega)
      rw [ih (n - 1) (by omega) hn', hg, bmax_apply m c ⟨n, hn⟩ r]
      exact (runPos_next (pts m c) (lbl m c) (Cert.Spec.row (rowGrp ⟨n, hn⟩) r) (n % 16) (Nat.mod_lt _ (by decide))
        ((n - 1) % 16) (Nat.mod_lt _ (by decide)) (by omega)).symm

/-- The second scratch vector after position `n`. -/
private theorem accAt_neg_aux (c : Dev nD) (r : Fin 1024) (n : ℕ) : ∀ hn : n < cfg0.N,
    (accAt m c n hn).2 (ix2 r (0 : Fin 1))
      = Cert.Spec.runNeg (pts m c) (lbl m c) (Cert.Spec.row (rowGrp ⟨n, hn⟩) r) (n % 16) (Nat.mod_lt _ (by decide)) := by
  induction n using Nat.strong_induction_on with
  | _ n ih =>
    intro hn
    by_cases h0 : n % 16 = 0
    · have e : accAt m c n hn = (k0_pay1 (bmax m c ⟨n, hn⟩) (k0_pay3 (F := Ideal)), k0_pay2 (bmin m c ⟨n, hn⟩) (k0_pay4 (F := Ideal))) :=
        accAt_reset m c ⟨n, hn⟩ h0
      rw [e]
      refine (pay2_apply (bmin m c ⟨n, hn⟩) (k0_pay4 (F := Ideal)) r).trans ?_
      rw [pay4_apply r, bmin_apply m c ⟨n, hn⟩ r]
      exact (runNeg_first (pts m c) (lbl m c) (Cert.Spec.row (rowGrp ⟨n, hn⟩) r) (n % 16) (Nat.mod_lt _ (by decide)) h0).symm
    · have hn' : n - 1 < cfg0.N := Nat.lt_of_le_of_lt (Nat.sub_le _ _) hn
      have e : accAt m c n hn = (k0_pay1 (bmax m c ⟨n, hn⟩) (accAt m c (n - 1) hn').1, k0_pay2 (bmin m c ⟨n, hn⟩) (accAt m c (n - 1) hn').2) :=
        accAt_step m c ⟨n, hn⟩ h0
      rw [e]
      refine (pay2_apply (bmin m c ⟨n, hn⟩) (accAt m c (n - 1) hn').2 r).trans ?_
      have hg : rowGrp ⟨n - 1, hn'⟩ = rowGrp ⟨n, hn⟩ := Fin.ext (by show (n - 1) / 16 = n / 16; omega)
      rw [ih (n - 1) (by omega) hn', hg, bmin_apply m c ⟨n, hn⟩ r]
      exact (runNeg_next (pts m c) (lbl m c) (Cert.Spec.row (rowGrp ⟨n, hn⟩) r) (n % 16) (Nat.mod_lt _ (by decide))
        ((n - 1) % 16) (Nat.mod_lt _ (by decide)) (by omega)).symm

/-- After point `t` the first scratch vector holds the running maximum over the column groups `0 … t % 16`. -/
theorem accAt_pos (c : Dev nD) (t : Fin cfg0.N) (r : Fin 1024) :
    (accAt m c t.val t.isLt).1 (ix2 r (0 : Fin 1))
      = Cert.Spec.runPos (pts m c) (lbl m c) (Cert.Spec.row (rowGrp t) r) (t.val % 16) (Nat.mod_lt _ (by decide)) :=
  accAt_pos_aux m c r t.val t.isLt

/-- And the second the running minimum. -/
theorem accAt_neg (c : Dev nD) (t : Fin cfg0.N) (r : Fin 1024) :
    (accAt m c t.val t.isLt).2 (ix2 r (0 : Fin 1))
      = Cert.Spec.runNeg (pts m c) (lbl m c) (Cert.Spec.row (rowGrp t) r) (t.val % 16) (Nat.mod_lt _ (by decide)) :=
  accAt_neg_aux m c r t.val t.isLt

/-! ## From the write-backs to the arrays -/

/-- The running maximum after column group 15 is the maximum over all columns. -/
private theorem runPos_all (x : Cert.Spec.Pts) (l : Cert.Spec.Lbl) (i : Fin 8192) (J : ℕ) (h : J < 16) (e : J = 15) :
    Cert.Spec.runPos x l i J h = Cert.Spec.hardPos x l i := by
  subst e; exact Cert.Spec.runPos_last x l i

/-- The first output window's block at point `t` is block `t / 16` of the rows and the one block of the one column. -/
private theorem idx4 : ∀ t : Fin cfg0.N, win0_4.index t (0 : Fin 2) = t.val / 16 ∧ win0_4.index t (1 : Fin 2) = 0 :=
  (by decide +kernel : ∀ t : Fin grid0.N, _)

/-- A block of 1024 rows whose row `r` holds a function of the rows at row `r` of row group `t / 16` is the
    first output window's block at point `t` of that function of the rows, as a column. -/
private theorem rows_blk4 (t : Fin cfg0.N) (X : FVec Ideal S1024x1 .f32) (H : Fin 8192 → EReal)
    (hX : ∀ r : Fin 1024, X (ix2 r (0 : Fin 1)) = H (Cert.Spec.row (rowGrp t) r)) :
    (cfg0.win 4).cut (grid0.coords t) X = ((cfg0.win 4).blk t).view.read (Elt Ideal) (fun y : S8192x1.Idx => H (y 0)) := by
  funext y
  rw [View.read_apply]
  have hr : (y 0).val < 1024 := (y 0).isLt
  have h1 : (y 1).val < 1 := (y 1).isLt
  show X ((cfg0.win 4).xinj (grid0.coords t) y) = H ((((cfg0.win 4).blk t).view.emb y) 0)
  have e1 : (cfg0.win 4).xinj (grid0.coords t) y = (ix2 (⟨(y 0).val, hr⟩ : Fin 1024) (0 : Fin 1) : S1024x1.Idx) := by
    funext a
    apply Fin.ext
    match a with
    | ⟨0, _⟩ => rfl
    | ⟨1, _⟩ => show (y 1).val = 0; omega
  have e2 : (((cfg0.win 4).blk t).view.emb y) 0 = Cert.Spec.row (rowGrp t) ⟨(y 0).val, hr⟩ := by
    apply Fin.ext
    show win0_4.index t (0 : Fin 2) * 1024 + 1 * (y 0).val = 1024 * (t.val / 16) + (y 0).val
    rw [(idx4 t).1]; omega
  exact (congrArg X e1).trans ((hX ⟨(y 0).val, hr⟩).trans (congrArg H e2.symm))

/-- What a point of column group 15 writes back to the first output is its block of every row's hardest positive. -/
private theorem flushed4_eq (c : Dev nD) (t : Fin cfg0.N) (hf : (cfg0.win 4).flush t = true) :
    (dats m 0 c).flushed 4 t
      = ((cfg0.win 4).blk t).view.read (Elt Ideal) (fun y : S8192x1.Idx => Cert.Spec.hardPos (pts m c) (lbl m c) (y 0)) := by
  have h15 : t.val % 16 = 15 := (flush0_4 t).mp hf
  show (cfg0.win 4).cut (grid0.coords t) ((dats m 0 c).after 4 t) = _
  rw [after4]
  exact rows_blk4 t (accAt m c t.val t.isLt).1 (Cert.Spec.hardPos (pts m c) (lbl m c))
    (fun r => (accAt_pos m c t r).trans
      (runPos_all (pts m c) (lbl m c) (Cert.Spec.row (rowGrp t) r) (t.val % 16) (Nat.mod_lt _ (by decide)) h15))

/-- Row `i` of the first output lies in the block written back at the last point of its row group. -/
private theorem cover4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 128 := N_0
  have ht : 16 * ((i 0).val / 1024) + 15 < cfg0.N := by rw [hN]; omega
  refine ⟨⟨16 * ((i 0).val / 1024) + 15, ht⟩, (flush0_4 _).mpr (by show (16 * ((i 0).val / 1024) + 15) % 16 = 15; omega), ?_⟩
  have e0 : win0_4.index ⟨16 * ((i 0).val / 1024) + 15, ht⟩ (0 : Fin 2) = (16 * ((i 0).val / 1024) + 15) / 16 := (idx4 _).1
  have e1 : win0_4.index ⟨16 * ((i 0).val / 1024) + 15, ht⟩ (1 : Fin 2) = 0 := (idx4 _).2
  show i ∈ ((View.whole main_v2_0).slice (win0_4.rect ⟨16 * ((i 0).val / 1024) + 15, ht⟩)).set
  rw [View.set_slice_whole, Rect.mem_set_unit]
  intro a
  match a with
  | ⟨0, _⟩ =>
    show win0_4.index ⟨16 * ((i 0).val / 1024) + 15, ht⟩ (0 : Fin 2) * 1024 ≤ (i 0).val
      ∧ (i 0).val < win0_4.index ⟨16 * ((i 0).val / 1024) + 15, ht⟩ (0 : Fin 2) * 1024 + 1024
    rw [e0]; omega
  | ⟨1, _⟩ =>
    show win0_4.index ⟨16 * ((i 0).val / 1024) + 15, ht⟩ (1 : Fin 2) * 1 ≤ (i 1).val
      ∧ (i 1).val < win0_4.index ⟨16 * ((i 0).val / 1024) + 15, ht⟩ (1 : Fin 2) * 1 + 1
    rw [e1]; omega

/-- The first output array after the run, as one function of the rows. -/
private theorem final4 (c : Dev nD) :
    (dats m 0 c).arrAt 4 cfg0.N = (fun y : S8192x1.Idx => Cert.Spec.hardPos (pts m c) (lbl m c) (y 0)) :=
  (dats m 0 c).arrAt_eq_of_cover 4 (fun y : S8192x1.Idx => Cert.Spec.hardPos (pts m c) (lbl m c) (y 0))
    (fun t hf => flushed4_eq m c t hf) cover4

/-- The running minimum after column group 15 is the minimum over all columns. -/
private theorem runNeg_all (x : Cert.Spec.Pts) (l : Cert.Spec.Lbl) (i : Fin 8192) (J : ℕ) (h : J < 16) (e : J = 15) :
    Cert.Spec.runNeg x l i J h = Cert.Spec.hardNeg x l i := by
  subst e; exact Cert.Spec.runNeg_last x l i

/-- The second output window's block at point `t` is block `t / 16` of the rows and the one block of the one column. -/
private theorem idx5 : ∀ t : Fin cfg0.N, win0_5.index t (0 : Fin 2) = t.val / 16 ∧ win0_5.index t (1 : Fin 2) = 0 :=
  (by decide +kernel : ∀ t : Fin grid0.N, _)

/-- A block of 1024 rows whose row `r` holds a function of the rows at row `r` of row group `t / 16` is the
    second output window's block at point `t` of that function of the rows, as a column. -/
private theorem rows_blk5 (t : Fin cfg0.N) (X : FVec Ideal S1024x1 .f32) (H : Fin 8192 → EReal)
    (hX : ∀ r : Fin 1024, X (ix2 r (0 : Fin 1)) = H (Cert.Spec.row (rowGrp t) r)) :
    (cfg0.win 5).cut (grid0.coords t) X = ((cfg0.win 5).blk t).view.read (Elt Ideal) (fun y : S8192x1.Idx => H (y 0)) := by
  funext y
  rw [View.read_apply]
  have hr : (y 0).val < 1024 := (y 0).isLt
  have h1 : (y 1).val < 1 := (y 1).isLt
  show X ((cfg0.win 5).xinj (grid0.coords t) y) = H ((((cfg0.win 5).blk t).view.emb y) 0)
  have e1 : (cfg0.win 5).xinj (grid0.coords t) y = (ix2 (⟨(y 0).val, hr⟩ : Fin 1024) (0 : Fin 1) : S1024x1.Idx) := by
    funext a
    apply Fin.ext
    match a with
    | ⟨0, _⟩ => rfl
    | ⟨1, _⟩ => show (y 1).val = 0; omega
  have e2 : (((cfg0.win 5).blk t).view.emb y) 0 = Cert.Spec.row (rowGrp t) ⟨(y 0).val, hr⟩ := by
    apply Fin.ext
    show win0_5.index t (0 : Fin 2) * 1024 + 1 * (y 0).val = 1024 * (t.val / 16) + (y 0).val
    rw [(idx5 t).1]; omega
  exact (congrArg X e1).trans ((hX ⟨(y 0).val, hr⟩).trans (congrArg H e2.symm))

/-- What a point of column group 15 writes back to the second output is its block of every row's hardest negative. -/
private theorem flushed5_eq (c : Dev nD) (t : Fin cfg0.N) (hf : (cfg0.win 5).flush t = true) :
    (dats m 0 c).flushed 5 t
      = ((cfg0.win 5).blk t).view.read (Elt Ideal) (fun y : S8192x1.Idx => Cert.Spec.hardNeg (pts m c) (lbl m c) (y 0)) := by
  have h15 : t.val % 16 = 15 := (flush0_5 t).mp hf
  show (cfg0.win 5).cut (grid0.coords t) ((dats m 0 c).after 5 t) = _
  rw [after5]
  exact rows_blk5 t (accAt m c t.val t.isLt).2 (Cert.Spec.hardNeg (pts m c) (lbl m c))
    (fun r => (accAt_neg m c t r).trans
      (runNeg_all (pts m c) (lbl m c) (Cert.Spec.row (rowGrp t) r) (t.val % 16) (Nat.mod_lt _ (by decide)) h15))

/-- Row `i` of the second output lies in the block written back at the last point of its row group. -/
private theorem cover5 (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 128 := N_0
  have ht : 16 * ((i 0).val / 1024) + 15 < cfg0.N := by rw [hN]; omega
  refine ⟨⟨16 * ((i 0).val / 1024) + 15, ht⟩, (flush0_5 _).mpr (by show (16 * ((i 0).val / 1024) + 15) % 16 = 15; omega), ?_⟩
  have e0 : win0_5.index ⟨16 * ((i 0).val / 1024) + 15, ht⟩ (0 : Fin 2) = (16 * ((i 0).val / 1024) + 15) / 16 := (idx5 _).1
  have e1 : win0_5.index ⟨16 * ((i 0).val / 1024) + 15, ht⟩ (1 : Fin 2) = 0 := (idx5 _).2
  show i ∈ ((View.whole main_v2_1).slice (win0_5.rect ⟨16 * ((i 0).val / 1024) + 15, ht⟩)).set
  rw [View.set_slice_whole, Rect.mem_set_unit]
  intro a
  match a with
  | ⟨0, _⟩ =>
    show win0_5.index ⟨16 * ((i 0).val / 1024) + 15, ht⟩ (0 : Fin 2) * 1024 ≤ (i 0).val
      ∧ (i 0).val < win0_5.index ⟨16 * ((i 0).val / 1024) + 15, ht⟩ (0 : Fin 2) * 1024 + 1024
    rw [e0]; omega
  | ⟨1, _⟩ =>
    show win0_5.index ⟨16 * ((i 0).val / 1024) + 15, ht⟩ (1 : Fin 2) * 1 ≤ (i 1).val
      ∧ (i 1).val < win0_5.index ⟨16 * ((i 0).val / 1024) + 15, ht⟩ (1 : Fin 2) * 1 + 1
    rw [e1]; omega

/-- The second output array after the run, as one function of the rows. -/
private theorem final5 (c : Dev nD) :
    (dats m 0 c).arrAt 5 cfg0.N = (fun y : S8192x1.Idx => Cert.Spec.hardNeg (pts m c) (lbl m c) (y 0)) :=
  (dats m 0 c).arrAt_eq_of_cover 5 (fun y : S8192x1.Idx => Cert.Spec.hardNeg (pts m c) (lbl m c) (y 0))
    (fun t hf => flushed5_eq m c t hf) cover5

/-- The first output array after the run: every row's hardest positive. -/
theorem out4_apply (c : Dev nD) (i : Fin 8192) :
    ((dats m 0 c).arrAt 4 cfg0.N : S8192x1.Idx → EReal) (ix2 i (0 : Fin 1)) = Cert.Spec.hardPos (pts m c) (lbl m c) i :=
  congrFun (final4 m c) (ix2 i (0 : Fin 1))

/-- The second output array after the run: every row's hardest negative. -/
theorem out5_apply (c : Dev nD) (i : Fin 8192) :
    ((dats m 0 c).arrAt 5 cfg0.N : S8192x1.Idx → EReal) (ix2 i (0 : Fin 1)) = Cert.Spec.hardNeg (pts m c) (lbl m c) i :=
  congrFun (final5 m c) (ix2 i (0 : Fin 1))

end Cert.KernelIdeal.Hand

end
-- ==== Proof.RefValue.lean ====
import proofs.«114037_j2585570312417_1_alg».proof.Proof.Gen.ReferenceIdeal.Run
import proofs.«114037_j2585570312417_1_alg».proof.Proof.Gen.ReferenceIdeal.Read
import proofs.«114037_j2585570312417_1_alg».proof.Proof.Spec
import Idealize.ShloMosaic.PureOps.Ideal.Laws
import Idealize.ShloMosaic.PureOps.Reduce
import Idealize.ShloMosaic.Lib.Affine

/-! The reference program's two mined vectors are the hardest positive and the hardest negative of the
    specification, and its result is a fixed chain of operations applied to them. -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The mean hinge of the two mined vectors: subtract, add the margin, clamp at zero, sum, divide by 8192. -/
def tail (ap an : FVec Ideal S8192 .f32) : FVec Ideal S_ .f32 :=
  Host.divf (Host.reduceAdd (maximumf (addf (subf ap an) (Read.val_main_v24 (F := Ideal))) (Read.val_main_v26 (F := Ideal)))
    (Read.val_main_cst_8 (F := Ideal)) reducesTo_S8192_S_d0 h_S_) (Read.val_main_cst_9 (F := Ideal))

/-- The reference's result is that chain applied to its two mined vectors. -/
theorem v29_eq_tail (x0 : (⟨S8192x512, .f32⟩ : BufTy).Contents (Elt Ideal)) (x1 : (⟨S8192, .i32⟩ : BufTy).Contents (Elt Ideal)) :
    Read.val_main_v29 (F := Ideal) x0 x1 = tail (Read.val_main_v20 (F := Ideal) x0 x1) (Read.val_main_v22 (F := Ideal) x0 x1) := rfl

/-- Row `i`'s sum of squares is the squared norm of point `i`. -/
private theorem v1_apply (x0 : (⟨S8192x512, .f32⟩ : BufTy).Contents (Elt Ideal)) (i : Fin 8192) :
    Read.val_main_v1 (F := Ideal) x0 (ix1 i) = Cert.Spec.sq x0 i := by
  rw [Read.val_main_v1_apply, Read.val_main_cst_apply]
  simp only [Read.val_main_v0_apply, Ideal.ofBits_def, Ideal.mulf_def, Ideal.ofBits_zero_f32, zero_add]
  unfold Cert.Spec.sq
  refine Finset.sum_congr rfl fun k _ => ?_
  have e : Read.idx_main_v1 (ix1 i) k = ix2 i k :=
    funext fun a => Fin.ext (by match a with | ⟨0, _⟩ => rfl | ⟨1, _⟩ => rfl)
  rw [e]

/-- The contraction at (i, j) is the inner product of points `i` and `j`. -/
private theorem v8_apply (x0 : (⟨S8192x512, .f32⟩ : BufTy).Contents (Elt Ideal)) (i j : Fin 8192) :
    Read.val_main_v8 (F := Ideal) x0 (ix2 i j) = Cert.Spec.dot x0 i j := by
  rw [Read.val_main_v8_apply]
  unfold Cert.Spec.dot
  refine Finset.sum_congr rfl fun k _ => ?_
  have el : Read.lidx_main_v8 (ix2 i j) k = ix2 i k :=
    funext fun a => Fin.ext (by match a with | ⟨0, _⟩ => rfl | ⟨1, _⟩ => rfl)
  have er : Read.idx_main_v7 (Read.ridx_main_v8 (ix2 i j) k) = ix2 j k :=
    funext fun a => Fin.ext (by match a with | ⟨0, _⟩ => rfl | ⟨1, _⟩ => rfl)
  rw [Read.val_main_v7_apply, el, er]

/-- The clamped, rooted entry at (i, j) is the distance of points `i` and `j`. -/
private theorem v13_apply (x0 : (⟨S8192x512, .f32⟩ : BufTy).Contents (Elt Ideal)) (i j : Fin 8192) :
    Read.val_main_v13 (F := Ideal) x0 (ix2 i j) = Cert.Spec.dist x0 i j := by
  have e2 : Read.idx_main_v2 (Read.idx_main_v4 (ix2 i j)) = ix1 i :=
    funext fun a => Fin.ext (by match a with | ⟨0, _⟩ => rfl)
  have e3 : Read.idx_main_v3 (Read.idx_main_v5 (ix2 i j)) = ix1 j :=
    funext fun a => Fin.ext (by match a with | ⟨0, _⟩ => rfl)
  rw [Read.val_main_v13_apply, Read.val_main_v12_apply, Read.val_main_call0_v1_apply, Read.val_main_call0_v0_apply,
    Read.val_main_cst_1_apply, Read.val_main_v11_apply, Read.val_main_v6_apply, Read.val_main_v4_apply,
    Read.val_main_v2_apply, Read.val_main_v5_apply, Read.val_main_v3_apply, Read.val_main_v10_apply,
    Read.val_main_v9_apply, Read.val_main_cst_0_apply, e2, e3, v1_apply, v1_apply, v8_apply]
  rfl

/-- The label comparison at (i, j) says whether points `i` and `j` carry the same label. -/
private theorem v18_apply (x1 : (⟨S8192, .i32⟩ : BufTy).Contents (Elt Ideal)) (i j : Fin 8192) :
    Read.val_main_v18 (F := Ideal) x1 (ix2 i j) = IntOp.cmpi .eq (x1 (ix1 i)) (x1 (ix1 j)) := by
  have e14 : Read.idx_main_v14 (Read.idx_main_v16 (ix2 i j)) = ix1 i :=
    funext fun a => Fin.ext (by match a with | ⟨0, _⟩ => rfl)
  have e15 : Read.idx_main_v15 (Read.idx_main_v17 (ix2 i j)) = ix1 j :=
    funext fun a => Fin.ext (by match a with | ⟨0, _⟩ => rfl)
  rw [Read.val_main_v18_apply, Read.val_main_v16_apply, Read.val_main_v14_apply, Read.val_main_v17_apply,
    Read.val_main_v15_apply, e14, e15]

/-- The entry masked to -inf off the label is the specification's positive entry. -/
private theorem v19_apply (x0 : (⟨S8192x512, .f32⟩ : BufTy).Contents (Elt Ideal)) (x1 : (⟨S8192, .i32⟩ : BufTy).Contents (Elt Ideal))
    (i j : Fin 8192) : Read.val_main_v19 (F := Ideal) x0 x1 (ix2 i j) = Cert.Spec.pos x0 x1 i j := by
  rw [Read.val_main_v19_apply, v18_apply, v13_apply, Read.val_main_call1_v0_apply, Read.val_main_cst_2_apply]
  unfold Cert.Spec.pos
  by_cases h : x1 (ix1 i) = x1 (ix1 j)
  · rw [IntOp.cmpi_eq.2 h, select_one, if_pos h]
  · rw [eq_zero_of_ne_one (fun hc => h (IntOp.cmpi_eq.1 hc)), select_zero, if_neg h]; rfl

/-- The entry masked to +inf on the label is the specification's negative entry. -/
private theorem v21_apply (x0 : (⟨S8192x512, .f32⟩ : BufTy).Contents (Elt Ideal)) (x1 : (⟨S8192, .i32⟩ : BufTy).Contents (Elt Ideal))
    (i j : Fin 8192) : Read.val_main_v21 (F := Ideal) x0 x1 (ix2 i j) = Cert.Spec.neg x0 x1 i j := by
  rw [Read.val_main_v21_apply, v18_apply, v13_apply, Read.val_main_call2_v0_apply, Read.val_main_cst_4_apply]
  unfold Cert.Spec.neg
  by_cases h : x1 (ix1 i) = x1 (ix1 j)
  · rw [IntOp.cmpi_eq.2 h, select_one, if_pos h]; rfl
  · rw [eq_zero_of_ne_one (fun hc => h (IntOp.cmpi_eq.1 hc)), select_zero, if_neg h]

/-- The row index `i` with column `k` put back is (i, k). -/
private theorem lift_ix2 (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- The reference's first mined vector is the hardest positive. -/
theorem v20_apply (x0 : (⟨S8192x512, .f32⟩ : BufTy).Contents (Elt Ideal)) (x1 : (⟨S8192, .i32⟩ : BufTy).Contents (Elt Ideal)) (i : Fin 8192) :
    Read.val_main_v20 (F := Ideal) x0 x1 (ix1 i) = Cert.Spec.hardPos x0 x1 i := by
  have hred : S8192x8192.Reduces [1] S8192 := by decide
  unfold Read.val_main_v20
  rw [Host.reduce_eq_fold_single FloatOps.maximumf _ _ reducesTo_S8192x8192_S8192_d1 hred h_S_]
  have hf : (Read.val_main_v19 (F := Ideal) x0 x1 ∘ hred.lift (ix1 i)) = fun k : Fin 8192 => Cert.Spec.pos x0 x1 i k :=
    funext fun k => (congrArg (Read.val_main_v19 (F := Ideal) x0 x1) (lift_ix2 hred i k)).trans (v19_apply x0 x1 i _)
  exact congrArg (fun f => Finset.fold max (Ideal.ofBits .f32 0xFF800000#32) f (Finset.univ : Finset (Fin 8192))) hf

/-- The reference's second mined vector is the hardest negative. -/
theorem v22_apply (x0 : (⟨S8192x512, .f32⟩ : BufTy).Contents (Elt Ideal)) (x1 : (⟨S8192, .i32⟩ : BufTy).Contents (Elt Ideal)) (i : Fin 8192) :
    Read.val_main_v22 (F := Ideal) x0 x1 (ix1 i) = Cert.Spec.hardNeg x0 x1 i := by
  have hred : S8192x8192.Reduces [1] S8192 := by decide
  unfold Read.val_main_v22
  rw [Host.reduce_eq_fold_single FloatOps.minimumf _ _ reducesTo_S8192x8192_S8192_d1 hred h_S_]
  have hf : (Read.val_main_v21 (F := Ideal) x0 x1 ∘ hred.lift (ix1 i)) = fun k : Fin 8192 => Cert.Spec.neg x0 x1 i k :=
    funext fun k => (congrArg (Read.val_main_v21 (F := Ideal) x0 x1) (lift_ix2 hred i k)).trans (v21_apply x0 x1 i _)
  exact congrArg (fun f => Finset.fold min (Ideal.ofBits .f32 0x7F800000#32) f (Finset.univ : Finset (Fin 8192))) hf

end Cert.ReferenceIdeal.RefValue

end
-- ==== Proof.lean ====
/-
  The pairwise hard-mining triplet loss: the kernel against its reference, over the extended reals.

  Both programs compute, for 8192 points of 512 coordinates with one label each, the distance matrix
  `sqrt (max eps (|x i|^2 + |x j|^2 - 2 <x i, x j>))`, per row the largest distance to a point of the same label
  and the smallest to a point of another, and the mean over the rows of `max (hardest positive - hardest
  negative + margin) 0`.  The reference reduces each row of the full 8192 x 8192 matrix at once; the kernel
  walks a grid of 8 row groups by 16 column groups, keeps per row a running maximum and minimum across
  the 16 column groups of a row group, and writes them out at the last.  Maximum and minimum are commutative,
  associative and idempotent, so the running values after the 16 groups are the reductions over all columns;
  sums of products are finite sums in a commutative monoid, so the tiled inner products and squared norms are
  the reference's.  No law used needs the inputs finite.
  The three frames: the reference's is its run with the result dropped; the kernel's, at either float instance,
  is the run of the pipelined region between the host operations, with the two windows on the points array
  each holding half of its share.  The idealization rewrote nothing, so `preserves` is `True`.
-/
import proofs.«114037_j2585570312417_1_alg».proof.Defs
import proofs.«114037_j2585570312417_1_alg».proof.Proof.Gen.Kernel
import proofs.«114037_j2585570312417_1_alg».proof.Proof.Gen.KernelIdeal
import proofs.«114037_j2585570312417_1_alg».proof.Proof.Gen.ReferenceIdeal
import proofs.«114037_j2585570312417_1_alg».proof.Proof.Gen.Pre_finite_inputs
import proofs.«114037_j2585570312417_1_alg».proof.Proof.Gen.ReferenceIdeal.Run
import proofs.«114037_j2585570312417_1_alg».proof.Proof.Gen.ReferenceIdeal.Read
import proofs.«114037_j2585570312417_1_alg».proof.Proof.BLaunch
import proofs.«114037_j2585570312417_1_alg».proof.Proof.KLaunch
import proofs.«114037_j2585570312417_1_alg».proof.Proof.KValue
import proofs.«114037_j2585570312417_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- A column vector flattened, read at an entry. -/
theorem flat_apply (a : (⟨2, ![8192, 1]⟩ : Shape).Idx → EReal) (h : (⟨2, ![8192, 1]⟩ : Shape).ShapeCasts ⟨1, ![8192]⟩) (i : Fin 8192) :
    shapeCast (⟨1, ![8192]⟩ : Shape) a h (ix1 i) = a (ix2 i (0 : Fin 1)) := by
  refine shapeCast_apply _ _ _ _ ?_
  rw [Shape.rowMajor_val_two, Shape.rowMajor_val_one]
  show i.val * 1 + 0 = i.val
  omega

section Bridge

open Cert.KernelIdeal Cert.KernelIdeal.Gen Cert.KernelIdeal.Hand

variable (m : (ℓ : Loc Cert.KernelIdeal.nD Cert.KernelIdeal.τ Cert.KernelIdeal.sig) → Buf (Elt Ideal) ℓ)

/-- The kernel's first output array, flattened, is the reference's first mined vector. -/
theorem hardPos_eq (c : Dev Cert.KernelIdeal.nD) :
    shapeCast Cert.KernelIdeal.S8192 (((dats m 0 c).arrAt 4 cfg0.N : Cert.KernelIdeal.S8192x1.Idx → EReal)) Cert.KernelIdeal.Facts₀.shapeCasts_S8192x1_S8192
      = Cert.ReferenceIdeal.Read.val_main_v20 (F := Ideal) (pts m c) (lbl m c) := by
  funext j
  obtain ⟨i, rfl⟩ : ∃ i : Fin 8192, j = ix1 i := ⟨j 0, eq_ix1 j⟩
  exact (flat_apply _ _ i).trans ((out4_apply m c i).trans (Cert.ReferenceIdeal.RefValue.v20_apply _ _ i).symm)

/-- And the second the second. -/
theorem hardNeg_eq (c : Dev Cert.KernelIdeal.nD) :
    shapeCast Cert.KernelIdeal.S8192 (((dats m 0 c).arrAt 5 cfg0.N : Cert.KernelIdeal.S8192x1.Idx → EReal)) Cert.KernelIdeal.Facts₀.shapeCasts_S8192x1_S8192
      = Cert.ReferenceIdeal.Read.val_main_v22 (F := Ideal) (pts m c) (lbl m c) := by
  funext j
  obtain ⟨i, rfl⟩ : ∃ i : Fin 8192, j = ix1 i := ⟨j 0, eq_ix1 j⟩
  exact (flat_apply _ _ i).trans ((out5_apply m c i).trans (Cert.ReferenceIdeal.RefValue.v22_apply _ _ i).symm)

/-- The kernel's chain of later operations is the reference's, applied to the flattened arrays. -/
theorem tail_eq (a4 a5 : FVec Ideal Cert.KernelIdeal.S8192x1 .f32) :
    tailK (F := Ideal) a4 a5
      = Cert.ReferenceIdeal.RefValue.tail (shapeCast Cert.KernelIdeal.S8192 a4 Cert.KernelIdeal.Facts₀.shapeCasts_S8192x1_S8192)
          (shapeCast Cert.KernelIdeal.S8192 a5 Cert.KernelIdeal.Facts₀.shapeCasts_S8192x1_S8192) := rfl

end Bridge

/-! ## The claims -/

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's chain applied to the hardest positives and negatives. -/
theorem algebraic : Cert.algebraic_KernelIdeal_ReferenceIdeal := by
  intro m ρ m' ρ' _ hagree
  refine ⟨fun c => Cert.KernelIdeal.Hand.Wf m c (Proc.devRef .tc Cert.KernelIdeal.main_v11), ?_, ?_⟩
  · exact (θ_run Cert.KernelIdeal.defs _ _).mono (fun r h c =>
      ⟨(h c).2 Cert.KernelIdeal.main_v11 (Pipeline.mem_restRefs_of Cert.KernelIdeal.main_v11 rfl (by decide)),
       ((h c).1 0).trans (((Cert.KernelIdeal.Hand.dats m 0 c).arrAt_in 0 rfl _).trans
         ((Cert.KernelIdeal.Hand.A_eq m c 0).trans (Cert.KernelIdeal.Hand.V_pts m c))),
       ((h c).2 Cert.KernelIdeal.main_arg1 (Pipeline.mem_restRefs_of Cert.KernelIdeal.main_arg1 rfl (by decide))).trans
         (Cert.KernelIdeal.Hand.Wf_lbl m c)⟩) (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.ReferenceIdeal.RefValue.v29_eq_tail, (hagree c).1, (hagree c).2]
    show _ = Cert.KernelIdeal.Hand.Wf m c (Proc.devRef .tc Cert.KernelIdeal.main_v11)
    rw [Cert.KernelIdeal.Hand.Wf_res, tail_eq, hardPos_eq, hardNeg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
